-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2x4096x4096 : Shape := ⟨4, ![1, 2, 4096, 4096]⟩
abbrev S1x1x4096x4096 : Shape := ⟨4, ![1, 1, 4096, 4096]⟩
abbrev S256 : Shape := ⟨1, ![256]⟩
abbrev S_ : Shape := ⟨0, ![]⟩

class Facts : Prop where
  bcast_S_S1x2x4096x4096 : S_.BroadcastsInDim S1x2x4096x4096 (![] : Fin 0 → Fin S1x2x4096x4096.rank)
  reducesTo_S1x2x4096x4096_S_d0_1_2_3 : S1x2x4096x4096.ReducesTo [0, 1, 2, 3] S_
  h_S_ : 0 < S_.numel
  bcast_S_S1x1x4096x4096 : S_.BroadcastsInDim S1x1x4096x4096 (![] : Fin 0 → Fin S1x1x4096x4096.rank)
  reducesTo_S1x1x4096x4096_S_d0_1_2_3 : S1x1x4096x4096.ReducesTo [0, 1, 2, 3] S_

variable [Facts]

def fn {F : FTy → Type} [FloatOps F] (main_arg0 : FVec F S1x2x4096x4096 .f32) (main_arg1 : FVec F S1x1x4096x4096 .f32) (main_arg2 : IVec S256 32) : IVec S_ 1 :=
  let main_v0 : FVec F S1x2x4096x4096 .f32 := Host.absf main_arg0
  let main_cst : FVec F S_ .f32 := constant S_ .f32 0x7F800000#32
  let main_v1 : FVec F S1x2x4096x4096 .f32 := broadcastInDim S1x2x4096x4096 ![] bcast_S_S1x2x4096x4096 main_cst
  let main_v2 : IVec S1x2x4096x4096 1 := cmpf .olt main_v0 main_v1
  let main_c : IVec S_ 1 := constantI S_ 1 1#1
  let main_v3 : IVec S_ 1 := (fun x v => Host.reduce IntOp.andi x v reducesTo_S1x2x4096x4096_S_d0_1_2_3 h_S_) main_v2 main_c
  let main_v4 : FVec F S1x1x4096x4096 .f32 := Host.absf main_arg1
  let main_cst_0 : FVec F S_ .f32 := constant S_ .f32 0x7F800000#32
  let main_v5 : FVec F S1x1x4096x4096 .f32 := broadcastInDim S1x1x4096x4096 ![] bcast_S_S1x1x4096x4096 main_cst_0
  let main_v6 : IVec S1x1x4096x4096 1 := cmpf .olt main_v4 main_v5
  let main_c_1 : IVec S_ 1 := constantI S_ 1 1#1
  let main_v7 : IVec S_ 1 := (fun x v => Host.reduce IntOp.andi x v reducesTo_S1x1x4096x4096_S_d0_1_2_3 h_S_) main_v6 main_c_1
  let main_v8 : IVec S_ 1 := andi main_v3 main_v7
  main_v8
-- ==== Kernel.lean ====
abbrev S1x2x4096x4096 : Shape := ⟨4, ![1, 2, 4096, 4096]⟩
abbrev S1x1x4096x4096 : Shape := ⟨4, ![1, 1, 4096, 4096]⟩
abbrev S256 : Shape := ⟨1, ![256]⟩
abbrev S_ : Shape := ⟨0, ![]⟩
abbrev S256x2x256x256 : Shape := ⟨4, ![256, 2, 256, 256]⟩
abbrev S256x1x256x256 : Shape := ⟨4, ![256, 1, 256, 256]⟩
abbrev S1x2x256x256 : Shape := ⟨4, ![1, 2, 256, 256]⟩
abbrev S1 : Shape := ⟨1, ![1]⟩
abbrev S1x1x256x256 : Shape := ⟨4, ![1, 1, 256, 256]⟩

abbrev nBuf : Space → Nat
  | .hbm => 46
  | .vmem => 8
  | .smem => 2
  | _ => 0

abbrev bufTy : (tb : Table) → Fin (tcTables nBuf tb) → BufTy
  | .hbm, ⟨0, _⟩ => ⟨S1x2x4096x4096, .f32⟩
  | .hbm, ⟨1, _⟩ => ⟨S1x1x4096x4096, .f32⟩
  | .hbm, ⟨2, _⟩ => ⟨S256, .i32⟩
  | .hbm, ⟨3, _⟩ => ⟨S256, .i32⟩
  | .hbm, ⟨4, _⟩ => ⟨S256, .i32⟩
  | .hbm, ⟨5, _⟩ => ⟨S256, .i32⟩
  | .hbm, ⟨6, _⟩ => ⟨S_, .i32⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S256, .i32⟩
  | .hbm, ⟨11, _⟩ => ⟨S_, .i32⟩
  | .hbm, ⟨12, _⟩ => ⟨S256, .i32⟩
  | .hbm, ⟨13, _⟩ => ⟨S256, .i1⟩
  | .hbm, ⟨14, _⟩ => ⟨S256, .i32⟩
  | .hbm, ⟨15, _⟩ => ⟨S256, .i32⟩
  | .hbm, ⟨16, _⟩ => ⟨S_, .i32⟩
  | .hbm, ⟨17, _⟩ => ⟨S256, .i32⟩
  | .hbm, ⟨18, _⟩ => ⟨S256, .i1⟩
  | .hbm, ⟨19, _⟩ => ⟨S256, .i1⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S256, .i32⟩
  | .hbm, ⟨30, _⟩ => ⟨S256, .i32⟩
  | .hbm, ⟨31, _⟩ => ⟨S_, .i32⟩
  | .hbm, ⟨32, _⟩ => ⟨S256, .i32⟩
  | .hbm, ⟨33, _⟩ => ⟨S256, .i1⟩
  | .hbm, ⟨34, _⟩ => ⟨S_, .i32⟩
  | .hbm, ⟨35, _⟩ => ⟨S256, .i32⟩
  | .hbm, ⟨36, _⟩ => ⟨S256, .i1⟩
  | .hbm, ⟨37, _⟩ => ⟨S_, .i32⟩
  | .hbm, ⟨38, _⟩ => ⟨S_, .i1⟩
  | .hbm, ⟨39, _⟩ => ⟨S256, .i1⟩
  | .hbm, ⟨40, _⟩ => ⟨S256, .i1⟩
  | .hbm, ⟨41, _⟩ => ⟨S256, .i1⟩
  | .hbm, ⟨42, _⟩ => ⟨S256, .i32⟩
  | .hbm, ⟨43, _⟩ => ⟨S256, .i32⟩
  | .hbm, ⟨44, _⟩ => ⟨S256x2x256x256, .f32⟩
  | .hbm, ⟨45, _⟩ => ⟨S256x1x256x256, .f32⟩
  | .local _ .vmem, ⟨0, _⟩ => ⟨S1x2x256x256, .f32⟩
  | .local _ .vmem, ⟨1, _⟩ => ⟨S1x2x256x256, .f32⟩
  | .local _ .vmem, ⟨2, _⟩ => ⟨S1x1x256x256, .f32⟩
  | .local _ .vmem, ⟨3, _⟩ => ⟨S1x1x256x256, .f32⟩
  | .local _ .vmem, ⟨4, _⟩ => ⟨S1x2x256x256, .f32⟩
  | .local _ .vmem, ⟨5, _⟩ => ⟨S1x2x256x256, .f32⟩
  | .local _ .vmem, ⟨6, _⟩ => ⟨S1x1x256x256, .f32⟩
  | .local _ .vmem, ⟨7, _⟩ => ⟨S1x1x256x256, .f32⟩
  | .local _ .smem, ⟨0, _⟩ => ⟨S256, .i32⟩
  | .local _ .smem, ⟨1, _⟩ => ⟨S256, .i32⟩
  | _, _ => ⟨S1x2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1_0 : Ref sig .tc := ⟨.hbm, 4, rfl⟩
abbrev main_v0 : Ref sig .tc := ⟨.hbm, 5, rfl⟩
abbrev main_c : Ref sig .tc := ⟨.hbm, 6, rfl⟩
abbrev main_call1_v0 : Ref sig .tc := ⟨.hbm, 7, rfl⟩
abbrev main_call1_v1 : Ref sig .tc := ⟨.hbm, 8, rfl⟩
abbrev main_call1_v2 : Ref sig .tc := ⟨.hbm, 9, rfl⟩
abbrev main_call1_v3 : Ref sig .tc := ⟨.hbm, 10, rfl⟩
abbrev main_call1_v4 : Ref sig .tc := ⟨.hbm, 11, rfl⟩
abbrev main_call1_v5 : Ref sig .tc := ⟨.hbm, 12, rfl⟩
abbrev main_call1_v6 : Ref sig .tc := ⟨.hbm, 13, rfl⟩
abbrev main_call1_v7 : Ref sig .tc := ⟨.hbm, 14, rfl⟩
abbrev main_call1_v8 : Ref sig .tc := ⟨.hbm, 15, rfl⟩
abbrev main_call1_c : Ref sig .tc := ⟨.hbm, 16, rfl⟩
abbrev main_call1_v9 : Ref sig .tc := ⟨.hbm, 17, rfl⟩
abbrev main_call1_v10 : Ref sig .tc := ⟨.hbm, 18, rfl⟩
abbrev main_call1_v11 : Ref sig .tc := ⟨.hbm, 19, rfl⟩
abbrev main_call1_c_0 : Ref sig .tc := ⟨.hbm, 20, rfl⟩
abbrev main_call1_v12 : Ref sig .tc := ⟨.hbm, 21, rfl⟩
abbrev main_call1_v13 : Ref sig .tc := ⟨.hbm, 22, rfl⟩
abbrev main_c_0 : Ref sig .tc := ⟨.hbm, 23, rfl⟩
abbrev main_call2_v0 : Ref sig .tc := ⟨.hbm, 24, rfl⟩
abbrev main_call2_c : Ref sig .tc := ⟨.hbm, 25, rfl⟩
abbrev main_call2_v1 : Ref sig .tc := ⟨.hbm, 26, rfl⟩
abbrev main_call2_c_0 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_call2_c_1 : Ref sig .tc := ⟨.hbm, 31, rfl⟩
abbrev main_call2_v5 : Ref sig .tc := ⟨.hbm, 32, rfl⟩
abbrev main_call2_v6 : Ref sig .tc := ⟨.hbm, 33, rfl⟩
abbrev main_call2_c_2 : Ref sig .tc := ⟨.hbm, 34, rfl⟩
abbrev main_call2_v7 : Ref sig .tc := ⟨.hbm, 35, rfl⟩
abbrev main_call2_v8 : Ref sig .tc := ⟨.hbm, 36, rfl⟩
abbrev main_call2_c_3 : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_v12 : Ref sig .tc := ⟨.hbm, 41, rfl⟩
abbrev main_call2_v13 : Ref sig .tc := ⟨.hbm, 42, rfl⟩
abbrev main_call2_v14 : Ref sig .tc := ⟨.hbm, 43, rfl⟩
abbrev main_v3_0 : Ref sig .tc := ⟨.hbm, 44, rfl⟩
abbrev main_v3_1 : Ref sig .tc := ⟨.hbm, 45, rfl⟩
abbrev main_v1 : Ref sig .tc := ⟨.smem, 0, rfl⟩
abbrev main_v2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![256], ![false]⟩

abbrev pre0 : Pipeline.Prefetch sig := ⟨2, ![main_v1.idx, main_v2.idx], fun | 0 => main_v1.names | 1 => main_v2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S256.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let v2 : Index := Scalar.indexCast arg0
  let v3 : BitVec 32 := pf.at 1 (Rect.unit (s := S256) ![v2.toNat] S1.size (k0_off1_inb i)) numel1_S1
  let c0_i32 : BitVec 32 := 0#32
  let c0_i32_0 : BitVec 32 := 0#32
  let c0_i32_1 : BitVec 32 := 0#32
  ![c0_i32.toNat, c0_i32_0.toNat, v1.toNat, v3.toNat]

def cc0_transform_1 (k0_off1_inb : ∀ i : grid0.Coords, ∀ a, (k0_off1 i) a + S1.size a ≤ S256.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let v2 : Index := Scalar.indexCast arg0
  let v3 : BitVec 32 := pf.at 1 (Rect.unit (s := S256) ![v2.toNat] S1.size (k0_off1_inb i)) numel1_S1
  let c0_i32 : BitVec 32 := 0#32
  let c0_i32_0 : BitVec 32 := 0#32
  let c0_i32_1 : BitVec 32 := 0#32
  ![c0_i32.toNat, c0_i32_0.toNat, v1.toNat, v3.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S256 : S_.BroadcastsInDim S256 (![] : Fin 0 → Fin S256.rank)
  numel1_S1 : S1.numel = 1
  inb_S1x2x256x256_S1x2x256x256_0_0_0_0 : ∀ a, (![0, 0, 0, 0] : Fin 4 → Nat) a + S1x2x256x256.size a ≤ S1x2x256x256.size a
  h_S1x2x256x256 : 0 < S1x2x256x256.numel
  inb_S1x1x256x256_S1x1x256x256_0_0_0_0 : ∀ a, (![0, 0, 0, 0] : Fin 4 → Nat) a + S1x1x256x256.size a ≤ S1x1x256x256.size a
  h_S1x1x256x256 : 0 < S1x1x256x256.numel
  hrank0 : 0 < grid0.rank
  k0_off1_inb : ∀ i : grid0.Coords, ∀ a, (k0_off1 i) a + S1.size a ≤ S256.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x256x256.size a ≤ S256x2x256x256.size a
  hwx0_2 : ∀ i : grid0.Coords, EltTy.bits .f32 = 32 ∨ (Rect.block (s := S256x2x256x256) S1x2x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x256.size a ≤ S256x1x256x256.size a
  hwx0_3 : ∀ i : grid0.Coords, EltTy.bits .f32 = 32 ∨ (Rect.block (s := S256x1x256x256) S1x1x256x256.size (cc0_transform_3 i) (hinb0_3 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2

abbrev spec0_0 : Pipeline.WinSpec sig grid0.rank :=
  Pipeline.WinSpec.ofSpec (Memref.whole main_arg0) S1x2x256x256.size reads0_0 false false 2 stage0_0 sem0_0 nbuf0_0 hstage0_0

abbrev spec0_1 : Pipeline.WinSpec sig grid0.rank :=
  Pipeline.WinSpec.ofSpec (Memref.whole main_arg1) S1x1x256x256.size reads0_1 false false 2 stage0_1 sem0_1 nbuf0_1 hstage0_1

abbrev spec0_2 : Pipeline.WinSpec sig grid0.rank :=
  Pipeline.WinSpec.ofSpec (Memref.whole main_v3_0) S1x2x256x256.size reads0_2 true false 2 stage0_2 sem0_2 nbuf0_2 hstage0_2

abbrev spec0_3 : Pipeline.WinSpec sig grid0.rank :=
  Pipeline.WinSpec.ofSpec (Memref.whole main_v3_1) S1x1x256x256.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x2x256x256.size a ≤ S1x2x4096x4096.size a), EltTy.bits .f32 = 32 ∨ (Rect.block (s := S1x2x4096x4096) S1x2x256x256.size (cc0_transform_0 k0_off1_inb numel1_S1 pf i) h).WholeWords (EltTy.packing .f32)) ∧
  (∀ i : grid0.Coords, ∃ h : (∀ a, (cc0_transform_1 k0_off1_inb numel1_S1 pf i a + 1) * S1x1x256x256.size a ≤ S1x1x4096x4096.size a), EltTy.bits .f32 = 32 ∨ (Rect.block (s := S1x1x4096x4096) S1x1x256x256.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S1x2x4096x4096 : Shape := ⟨4, ![1, 2, 4096, 4096]⟩
abbrev S1x1x4096x4096 : Shape := ⟨4, ![1, 1, 4096, 4096]⟩
abbrev S256 : Shape := ⟨1, ![256]⟩
abbrev S2x4096x4096 : Shape := ⟨3, ![2, 4096, 4096]⟩
abbrev S2x16x256x16x256 : Shape := ⟨5, ![2, 16, 256, 16, 256]⟩
abbrev S16x16x2x256x256 : Shape := ⟨5, ![16, 16, 2, 256, 256]⟩
abbrev S256x2x256x256 : Shape := ⟨4, ![256, 2, 256, 256]⟩
abbrev S1x4096x4096 : Shape := ⟨3, ![1, 4096, 4096]⟩
abbrev S1x16x256x16x256 : Shape := ⟨5, ![1, 16, 256, 16, 256]⟩
abbrev S16x16x1x256x256 : Shape := ⟨5, ![16, 16, 1, 256, 256]⟩
abbrev S256x1x256x256 : Shape := ⟨4, ![256, 1, 256, 256]⟩
abbrev S_ : Shape := ⟨0, ![]⟩
abbrev S256x1 : Shape := ⟨2, ![256, 1]⟩

abbrev nBuf : Space → Nat
  | .hbm => 32
  | .vmem => 0
  | .smem => 0
  | _ => 0

abbrev bufTy : (tb : Table) → Fin (tcTables nBuf tb) → BufTy
  | .hbm, ⟨0, _⟩ => ⟨S1x2x4096x4096, .f32⟩
  | .hbm, ⟨1, _⟩ => ⟨S1x1x4096x4096, .f32⟩
  | .hbm, ⟨2, _⟩ => ⟨S256, .i32⟩
  | .hbm, ⟨3, _⟩ => ⟨S256, .i32⟩
  | .hbm, ⟨4, _⟩ => ⟨S256, .i32⟩
  | .hbm, ⟨5, _⟩ => ⟨S256, .i32⟩
  | .hbm, ⟨6, _⟩ => ⟨S2x4096x4096, .f32⟩
  | .hbm, ⟨7, _⟩ => ⟨S2x16x256x16x256, .f32⟩
  | .hbm, ⟨8, _⟩ => ⟨S16x16x2x256x256, .f32⟩
  | .hbm, ⟨9, _⟩ => ⟨S256x2x256x256, .f32⟩
  | .hbm, ⟨10, _⟩ => ⟨S1x4096x4096, .f32⟩
  | .hbm, ⟨11, _⟩ => ⟨S1x16x256x16x256, .f32⟩
  | .hbm, ⟨12, _⟩ => ⟨S16x16x1x256x256, .f32⟩
  | .hbm, ⟨13, _⟩ => ⟨S256x1x256x256, .f32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S_, .i32⟩
  | .hbm, ⟨18, _⟩ => ⟨S256, .i32⟩
  | .hbm, ⟨19, _⟩ => ⟨S256, .i32⟩
  | .hbm, ⟨20, _⟩ => ⟨S256, .i32⟩
  | .hbm, ⟨21, _⟩ => ⟨S256x1, .i32⟩
  | .hbm, ⟨22, _⟩ => ⟨S256x2x256x256, .f32⟩
  | .hbm, ⟨23, _⟩ => ⟨S_, .i32⟩
  | .hbm, ⟨24, _⟩ => ⟨S256, .i32⟩
  | .hbm, ⟨25, _⟩ => ⟨S256, .i1⟩
  | .hbm, ⟨26, _⟩ => ⟨S_, .i32⟩
  | .hbm, ⟨27, _⟩ => ⟨S256, .i32⟩
  | .hbm, ⟨28, _⟩ => ⟨S256, .i32⟩
  | .hbm, ⟨29, _⟩ => ⟨S256, .i32⟩
  | .hbm, ⟨30, _⟩ => ⟨S256x1, .i32⟩
  | .hbm, ⟨31, _⟩ => ⟨S256x1x256x256, .f32⟩
  | _, _ => ⟨S1x2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  shapeCasts_S1x2x4096x4096_S2x4096x4096 : S1x2x4096x4096.ShapeCasts S2x4096x4096
  shapeCasts_S2x4096x4096_S2x16x256x16x256 : S2x4096x4096.ShapeCasts S2x16x256x16x256
  transposes_S2x16x256x16x256_S16x16x2x256x256_1_3_0_2_4 : S2x16x256x16x256.Transposes [1, 3, 0, 2, 4] S16x16x2x256x256
  shapeCasts_S16x16x2x256x256_S256x2x256x256 : S16x16x2x256x256.ShapeCasts S256x2x256x256
  shapeCasts_S1x1x4096x4096_S1x4096x4096 : S1x1x4096x4096.ShapeCasts S1x4096x4096
  shapeCasts_S1x4096x4096_S1x16x256x16x256 : S1x4096x4096.ShapeCasts S1x16x256x16x256
  transposes_S1x16x256x16x256_S16x16x1x256x256_1_3_0_2_4 : S1x16x256x16x256.Transposes [1, 3, 0, 2, 4] S16x16x1x256x256
  shapeCasts_S16x16x1x256x256_S256x1x256x256 : S16x16x1x256x256.ShapeCasts S256x1x256x256
  bcast_S_S256 : S_.BroadcastsInDim S256 (![] : Fin 0 → Fin S256.rank)
  bcast_S256_S256x1_0 : S256.BroadcastsInDim S256x1 (![0] : Fin 1 → Fin S256x1.rank)
  gather_S256x2x256x256_S256x1_S256x2x256x256_123_0_n_n_0_1_12256256_wf : GatherDims.WF S256x2x256x256 S256x1 S256x2x256x256 [1, 2, 3] [0] [] [0] [] 1 ![1, 2, 256, 256]
  gather_S256x1x256x256_S256x1_S256x1x256x256_123_0_n_n_0_1_11256256_wf : GatherDims.WF S256x1x256x256 S256x1 S256x1x256x256 [1, 2, 3] [0] [] [0] [] 1 ![1, 1, 256, 256]

variable [Facts₀]

def comparator_i32_i32_d0 : BitVec 32 × BitVec 32 → BitVec 32 × BitVec 32 → BitVec 1 :=
  fun l r =>
    let v2 := IntOp.cmpi .slt l.1 r.1
    v2
def gather_S256x2x256x256_S256x1_S256x2x256x256_123_0_n_n_0_1_12256256 : GatherDims S256x2x256x256 S256x1 S256x2x256x256 where
  offsetDims := [1, 2, 3]
  collapsedSliceDims := [0]
  operandBatchingDims := []
  startIndicesBatchingDims := []
  startIndexMap := [0]
  indexVectorDim := 1
  sliceSizes := ![1, 2, 256, 256]
  wf := gather_S256x2x256x256_S256x1_S256x2x256x256_123_0_n_n_0_1_12256256_wf
def gather_S256x1x256x256_S256x1_S256x1x256x256_123_0_n_n_0_1_11256256 : GatherDims S256x1x256x256 S256x1 S256x1x256x256 where
  offsetDims := [1, 2, 3]
  collapsedSliceDims := [0]
  operandBatchingDims := []
  startIndicesBatchingDims := []
  startIndexMap := [0]
  indexVectorDim := 1
  sliceSizes := ![1, 1, 256, 256]
  wf := gather_S256x1x256x256_S256x1_S256x1x256x256_123_0_n_n_0_1_11256256_wf

class Facts : Prop extends Facts₀ where

variable [Facts]
-- ==== Proof.ArgsortWords.lean ====
/-
  Two facts about integer words, independent of any program.

  (1) An argsort read at a position.  `jnp.argsort(keys)` sorts the pairs (keys[k], k) by their first component and
  returns the second components.  Whatever the keys are, the entry at place `j` is therefore the word of a position
  `p j < n`: the stable sort only permutes the positions 0 … n − 1.

  (2) jnp's `floor_divide(w, 16)` and `remainder(w, 16)` on such a word.  Both are the truncating quotient /
  remainder followed by a correction that fires only when the signs of dividend and divisor differ and the remainder
  is not zero.  For 0 ≤ k < 256 the dividend is non-negative, the divisor is positive, so no correction fires and the
  results are the words of k / 16 and k % 16.
-/
import Idealize.ShloMosaic.PureOps
import Idealize.ShloMosaic.Lib.SortFacts

noncomputable section

namespace Cert.Proof.ArgsortWords

open Idealize.ShloMosaic

/-! ## The argsort at a place is the word of a position -/

/-- The position whose pair the stable sort of (keys[k], k) by `cmp` puts at place `k`. -/
def place {n w : Nat} (cmp : BitVec w × BitVec 32 → BitVec w × BitVec 32 → BitVec 1) (keys : IVec ⟨1, ![n]⟩ w) (k : Fin n) : Fin n :=
  sortedFrom (fun a b => cmp (keys (Shape.Idx.ofFin a), BitVec.ofNat 32 a.val) (keys (Shape.Idx.ofFin b), BitVec.ofNat 32 b.val) == 1#1) k

/-- The second result of sorting (keys, iota) along the one axis, at place `j`: the word of `place … (j 0)`. -/
theorem argsort_apply {n w : Nat} (cmp : BitVec w × BitVec 32 → BitVec w × BitVec 32 → BitVec 1) (keys : IVec ⟨1, ![n]⟩ w)
    (j : (⟨1, ![n]⟩ : Shape).Idx) :
    (Host.sort2 ⟨1, ![n]⟩ 0 cmp keys (iotaInDim ⟨1, ![n]⟩ 32 0)).2 j = BitVec.ofNat 32 (place cmp keys (j 0)).val := by
  unfold Host.sort2 place iotaInDim
  simp

/-- The comparator jnp's argsort of 32-bit keys sorts the pairs by: signed "less than" on the keys. -/
def keyLt : BitVec 32 × BitVec 32 → BitVec 32 × BitVec 32 → BitVec 1 := fun l r => IntOp.cmpi .slt l.1 r.1

/-- `argsort(keys)[k]` for 256 keys, as a position: the inverse-permutation entry both programs compute. -/
def argPos (keys : IVec ⟨1, ![256]⟩ 32) (k : Fin 256) : Fin 256 := place keyLt keys k

/-- The argsort of 256 keys at place `j` is the word of `argPos keys (j 0)`. -/
theorem argsort256_apply (keys : IVec ⟨1, ![256]⟩ 32) (j : (⟨1, ![256]⟩ : Shape).Idx) :
    (Host.sort2 ⟨1, ![256]⟩ 0 keyLt keys (iotaInDim ⟨1, ![256]⟩ 32 0)).2 j = BitVec.ofNat 32 (argPos keys (j 0)).val :=
  argsort_apply keyLt keys j

-- from here on the position is a name: nothing below (or in a module that imports this one) evaluates the sort
attribute [irreducible] argPos

/-! ## floor_divide and remainder by sixteen, one word -/

/-- `stablehlo.sign` of one word. -/
def sgn (w : BitVec 32) : BitVec 32 := if w = 0 then 0 else if w.msb then -1 else 1

/-- jnp's `floor_divide(w, 16)` as it lowers, one word: the truncating quotient, less one when the signs differ and
    the remainder is not zero. -/
def floorDiv16 (w : BitVec 32) : BitVec 32 :=
  Scalar.select (IntOp.andi (IntOp.cmpi .ne (sgn w) (sgn 16#32)) (IntOp.cmpi .ne (IntOp.remsi .host w 16#32) 0#32))
    (IntOp.subi (IntOp.divsi .host w 16#32) 1#32) (IntOp.divsi .host w 16#32)

/-- jnp's `remainder(w, 16)` as it lowers, one word: the truncating remainder, plus the divisor when the remainder is
    not zero and its sign differs from the divisor's (the divisor first guarded against zero). -/
def floorMod16 (w : BitVec 32) : BitVec 32 :=
  let d : BitVec 32 := Scalar.select (IntOp.cmpi .eq 16#32 0#32) 1#32 16#32
  let r : BitVec 32 := IntOp.remsi .host w d
  Scalar.select (IntOp.andi (IntOp.cmpi .ne (IntOp.cmpi .slt r 0#32) (IntOp.cmpi .slt d 0#32)) (IntOp.cmpi .ne r 0#32))
    (IntOp.addi r d) r

/-- On the word of k < 256 no correction fires: the quotient is the word of k / 16, -/
theorem floorDiv16_ofNat : ∀ k : Fin 256, floorDiv16 (BitVec.ofNat 32 k.val) = BitVec.ofNat 32 (k.val / 16) := by
  decide +kernel

/-- and the remainder the word of k % 16. -/
theorem floorMod16_ofNat : ∀ k : Fin 256, floorMod16 (BitVec.ofNat 32 k.val) = BitVec.ofNat 32 (k.val % 16) := by
  decide +kernel

/-- The reference's wrap of a negative index (`w + 256` when `w < 0`) leaves the word of k < 256 alone, and the
    gather's clamp of its signed value into 0 … 255 gives k. -/
theorem wrap_clamp_ofNat : ∀ k : Fin 256,
    min (Scalar.select (IntOp.cmpi .slt (BitVec.ofNat 32 k.val) 0#32) (IntOp.addi (BitVec.ofNat 32 k.val) 256#32) (BitVec.ofNat 32 k.val)).toInt.toNat 255 = k.val := by
  decide +kernel

end Cert.Proof.ArgsortWords

end
-- ==== Proof.TablesBits.lean ====
/-
  The two prefetched tables of the kernel, read off the launch memory.

  @main computes `inv = argsort(perm)`, `ph = inv // 16` and `pw = inv % 16` before the pallas_call and hands `ph`, `pw`
  to it as scalar-prefetch tables.  Entry i of `inv` is the word of a position p i < 256 whatever `perm` holds (a sort
  only permutes 0 … 255), so ph[i] = p i / 16 and pw[i] = p i % 16 are both below 16: block (0, 0, ph[i], pw[i]) of
  256 × 256 patches lies inside the 4096 × 4096 planes at every grid point.  That is the pipeline's side condition on
  the tables, and it holds for EVERY launch memory: nothing is asked of `perm`.
-/
import proofs.«422418_j29910152249781_1_alg».proof.Proof.Gen.Kernel.Frame
import proofs.«422418_j29910152249781_1_alg».proof.Proof.ArgsortWords
import Idealize.ShloMosaic.Lib.StableHlo.Run
import Idealize.ShloMosaic.Lib.SortFacts

set_option maxRecDepth 16384

noncomputable section

namespace Cert.Kernel.Tables

open Cert.Kernel Cert.Kernel.Gen Cert.Proof.ArgsortWords
open Idealize.ShloMosaic Idealize.ShloMosaic.TcCoe Idealize.SL.Sem Idealize.ShloMosaic.StableHlo

variable {F : FTy → Type} [FloatOps F]
variable (m : (ℓ : Loc nD τ sig) → Buf (Elt F) ℓ)

/-- The keys: `perm` as launched (the program runs on one device). -/
abbrev keys : IVec S256 32 := m (((0 : Dev nD) : Thread nD τ).loc main_arg2)

/-- `p i`: the position behind entry i of `argsort(perm)`. -/
def pos (i : Fin 256) : Fin 256 := argPos (keys m) i

/-- `inv = argsort(perm)`, entry by entry. -/
abbrev inv : IVec S256 32 := (Host.sort2 S256 0 comparator_i32_i32_d0 (keys m) (iotaInDim S256 32 0)).2

theorem inv_apply (j : S256.Idx) : inv m j = BitVec.ofNat 32 (pos m (j 0)).val :=
  argsort256_apply (keys m) j

/-! ## The two tables as the host operations compute them from `inv` -/

/-- `floor_divide(x, 16)` on a vector of 256 words, operation by operation as @main lowers it. -/
def floorDiv16V (x : IVec S256 32) : IVec S256 32 :=
  let d : IVec S_ 32 := id (constantI S_ 32 16#32)
  let q : IVec S256 32 := Host.divsi x (broadcastInDim S256 ![] bcast_S_S256 d)
  select
    (andi (cmpi .ne (signi x) (broadcastInDim S256 ![] bcast_S_S256 (signi d)))
      (cmpi .ne (Host.remsi x (broadcastInDim S256 ![] bcast_S_S256 d)) (broadcastInDim S256 ![] bcast_S_S256 (constantI S_ 32 0#32))))
    (subi q (broadcastInDim S256 ![] bcast_S_S256 (constantI S_ 32 1#32)))
    q

/-- `remainder(x, 16)` on a vector of 256 words, operation by operation as @main lowers it. -/
def floorMod16V (x : IVec S256 32) : IVec S256 32 :=
  let d0 : IVec S_ 32 := id (constantI S_ 32 16#32)
  let d : IVec S_ 32 := select (cmpi .eq d0 (constantI S_ 32 0#32)) (constantI S_ 32 1#32) d0
  let r : IVec S256 32 := Host.remsi x (broadcastInDim S256 ![] bcast_S_S256 d)
  select
    (andi
      (cmpi .ne (cmpi .slt r (broadcastInDim S256 ![] bcast_S_S256 (constantI S_ 32 0#32)))
        (broadcastInDim S256 ![] bcast_S_S256 (cmpi .slt d (constantI S_ 32 0#32))))
      (cmpi .ne r (broadcastInDim S256 ![] bcast_S_S256 (constantI S_ 32 0#32))))
    (addi r (broadcastInDim S256 ![] bcast_S_S256 d))
    r

/-- Entry by entry the vector forms are the one-word forms (the argument a variable: nothing is evaluated). -/
theorem floorDiv16V_apply (x : IVec S256 32) (j : S256.Idx) : floorDiv16V x j = floorDiv16 (x j) := rfl
theorem floorMod16V_apply (x : IVec S256 32) (j : S256.Idx) : floorMod16V x j = floorMod16 (x j) := rfl

/-! ## Reading the two table buffers off the host prefix

The prefix is a fold over 43 operations.  It is cut after the argsort: for ANY contents `M` the remaining 40 operations
leave `floor_divide(M inv, 16)` and `remainder(M inv, 16)` in the table buffers (no sort in sight), and the three
operations of the argsort leave `inv` in its buffer. -/

/-- Operations run one stretch after the other. -/
theorem after_append (l₁ l₂ : List (HloOp τ sig (Elt F))) (M : Valuation τ sig (Elt F)) :
    StableHlo.after (l₁ ++ l₂) M = StableHlo.after l₂ (StableHlo.after l₁ M) := by
  induction l₁ generalizing M with
  | nil => rfl
  | cons op l ih => simp only [List.cons_append, StableHlo.after_cons, ih]

set_option maxHeartbeats 1000000 in
theorem tail_v1 (M : Valuation τ sig (Elt F)) :
    StableHlo.after (List.flatten [hostOps0_1, hostOps0_2, hostOps0_3, hostOps0_4]) M (Proc.devRef .tc main_v1)
      = floorDiv16V (M (Proc.devRef .tc main_v0)) := by
  simp only [hostOps0_1, hostOps0_2, hostOps0_3, hostOps0_4, List.flatten_cons, List.flatten_nil, List.append_nil, List.cons_append, List.nil_append]
  after_results
  rfl

set_option maxHeartbeats 1000000 in
theorem tail_v2 (M : Valuation τ sig (Elt F)) :
    StableHlo.after (List.flatten [hostOps0_1, hostOps0_2, hostOps0_3, hostOps0_4]) M (Proc.devRef .tc main_v2)
      = floorMod16V (M (Proc.devRef .tc main_v0)) := by
  simp only [hostOps0_1, hostOps0_2, hostOps0_3, hostOps0_4, List.flatten_cons, List.flatten_nil, List.append_nil, List.cons_append, List.nil_append]
  after_results
  rfl

/-- The argsort's three operations leave `inv` in its buffer. -/
theorem head_v0 : StableHlo.after hostOps0 (fun b => m ((0 : Dev nD), b)) (Proc.devRef .tc main_v0) = inv m := by
  simp only [hostOps0]
  after_results
  rfl

/-- The buffer the region finds table 0 in holds `floor_divide(inv, 16)`, -/
theorem v1_eq : V m (0 : Dev nD) main_v1 = floorDiv16V (inv m) := by
  unfold V
  rw [List.flatten_cons, after_append, tail_v1, head_v0]

/-- and table 1's holds `remainder(inv, 16)`. -/
theorem v2_eq : V m (0 : Dev nD) main_v2 = floorMod16V (inv m) := by
  unfold V
  rw [List.flatten_cons, after_append, tail_v2, head_v0]

/-- Table 0 at an entry: the word of p i / 16. -/
theorem tbl0_apply (j : S256.Idx) : (tbl m 0 j : BitVec 32) = BitVec.ofNat 32 ((pos m (j 0)).val / 16) := by
  have e : tbl m 0 = floorDiv16V (inv m) := (V_pre m 0 0).symm.trans (v1_eq m)
  rw [e, floorDiv16V_apply, inv_apply, floorDiv16_ofNat]

/-- Table 1 at an entry: the word of p i % 16. -/
theorem tbl1_apply (j : S256.Idx) : (tbl m 1 j : BitVec 32) = BitVec.ofNat 32 ((pos m (j 0)).val % 16) := by
  have e : tbl m 1 = floorMod16V (inv m) := (V_pre m 0 1).symm.trans (v2_eq m)
  rw [e, floorMod16V_apply, inv_apply, floorMod16_ofNat]

end Cert.Kernel.Tables

end
-- ==== Proof.IndexMapsBits.lean ====
/-
  The two table-reading index maps in closed form, and when the tables satisfy the pipeline's side condition —
  for ANY contents of the tables (a variable here: nothing about the launch memory is used).

  At grid point i the maps of the two input windows load entry i of each table and return the block index
  (0, 0, ph[i], pw[i]).  With ph[i], pw[i] < 16 the block of sizes (1, C, 256, 256) ends at most at
  (1, C, 16 · 256, 16 · 256) = the array's extents: every block is inside its array.
-/
import proofs.«422418_j29910152249781_1_alg».proof.Proof.Gen.Kernel.Frame
import Idealize.ShloMosaic.Lib.SortFacts

set_option maxRecDepth 16384

noncomputable section

namespace Cert.Kernel.Tables

open Cert.Kernel Cert.Kernel.Gen
open Idealize.ShloMosaic Idealize.ShloMosaic.TcCoe Idealize.SL.Sem

variable {F : FTy → Type} [FloatOps F]

/-- The table entry a grid point reads: entry number `i 0`. -/
def ent (i : grid0.Coords) : S256.Idx := Shape.Idx.ofFin ⟨(i 0).val, (i 0).isLt⟩

theorem ent_zero (i : grid0.Coords) : ((ent i) 0).val = (i 0).val := rfl

/-- The grid coordinate, made a word and read back as an offset, is the coordinate (it is below 2³²). -/
theorem coord_toNat (i : grid0.Coords) : (Scalar.indexCast (BitVec.ofNat 32 (i 0).val)).toNat = (i 0).val := by
  have h : (i 0).val < 256 := (i 0).isLt
  show (BitVec.ofNat 32 (i 0).val).toNat = _
  rw [BitVec.toNat_ofNat]; omega

/-- A scalar load of table 0 at offset `i 0` reads entry `ent i`; -/
theorem at0 (pf : pre0.Contents (Elt F)) (i : grid0.Coords) (off : Fin 1 → Nat) (hoff : off 0 = (i 0).val)
    (inb : ∀ a, off a + S1.size a ≤ S256.size a) (h1 : S1.numel = 1) :
    pf.at 0 (Rect.unit (s := S256) off S1.size inb) h1 = pf 0 (ent i) := by
  show pf 0 ((Rect.unit (s := S256) off S1.size inb).emb (Shape.Idx.first _)) = pf 0 (ent i)
  refine congrArg (pf 0) (funext fun a => Fin.ext ?_)
  match a with
  | ⟨0, _⟩ => show off 0 + 1 * 0 = (i 0).val; omega

/-- and of table 1 alike. -/
theorem at1 (pf : pre0.Contents (Elt F)) (i : grid0.Coords) (off : Fin 1 → Nat) (hoff : off 0 = (i 0).val)
    (inb : ∀ a, off a + S1.size a ≤ S256.size a) (h1 : S1.numel = 1) :
    pf.at 1 (Rect.unit (s := S256) off S1.size inb) h1 = pf 1 (ent i) := by
  show pf 1 ((Rect.unit (s := S256) off S1.size inb).emb (Shape.Idx.first _)) = pf 1 (ent i)
  refine congrArg (pf 1) (funext fun a => Fin.ext ?_)
  match a with
  | ⟨0, _⟩ => show off 0 + 1 * 0 = (i 0).val; omega

/-- Window 0's index map: block (0, 0, ph[i], pw[i]). -/
theorem map0_eq (pf : pre0.Contents (Elt F)) (i : grid0.Coords) :
    cc0_transform_0 k0_off1_inb numel1_S1 pf i = ![0, 0, (pf 0 (ent i) : BitVec 32).toNat, (pf 1 (ent i) : BitVec 32).toNat] := by
  have e0 := at0 pf i ![(Scalar.indexCast (BitVec.ofNat 32 (i 0).val)).toNat] (coord_toNat i) (k0_off1_inb i) numel1_S1
  have e1 := at1 pf i ![(Scalar.indexCast (BitVec.ofNat 32 (i 0).val)).toNat] (coord_toNat i) (k0_off1_inb i) numel1_S1
  show ![(0#32 : BitVec 32).toNat, (0#32 : BitVec 32).toNat,
      (pf.at 0 (Rect.unit (s := S256) ![(Scalar.indexCast (BitVec.ofNat 32 (i 0).val)).toNat] S1.size (k0_off1_inb i)) numel1_S1 : BitVec 32).toNat,
      (pf.at 1 (Rect.unit (s := S256) ![(Scalar.indexCast (BitVec.ofNat 32 (i 0).val)).toNat] S1.size (k0_off1_inb i)) numel1_S1 : BitVec 32).toNat] = _
  rw [e0, e1]
  rfl

/-- Window 1's index map: the same block index. -/
theorem map1_eq (pf : pre0.Contents (Elt F)) (i : grid0.Coords) :
    cc0_transform_1 k0_off1_inb numel1_S1 pf i = ![0, 0, (pf 0 (ent i) : BitVec 32).toNat, (pf 1 (ent i) : BitVec 32).toNat] := by
  have e0 := at0 pf i ![(Scalar.indexCast (BitVec.ofNat 32 (i 0).val)).toNat] (coord_toNat i) (k0_off1_inb i) numel1_S1
  have e1 := at1 pf i ![(Scalar.indexCast (BitVec.ofNat 32 (i 0).val)).toNat] (coord_toNat i) (k0_off1_inb i) numel1_S1
  show ![(0#32 : BitVec 32).toNat, (0#32 : BitVec 32).toNat,
      (pf.at 0 (Rect.unit (s := S256) ![(Scalar.indexCast (BitVec.ofNat 32 (i 0).val)).toNat] S1.size (k0_off1_inb i)) numel1_S1 : BitVec 32).toNat,
      (pf.at 1 (Rect.unit (s := S256) ![(Scalar.indexCast (BitVec.ofNat 32 (i 0).val)).toNat] S1.size (k0_off1_inb i)) numel1_S1 : BitVec 32).toNat] = _
  rw [e0, e1]
  rfl

/-- Tables whose entries are all below 16 satisfy the pipeline's side condition. -/
theorem ok_of_lt (pf : pre0.Contents (Elt F)) (h0 : ∀ j : S256.Idx, (pf 0 j : BitVec 32).toNat < 16)
    (h1 : ∀ j : S256.Idx, (pf 1 j : BitVec 32).toNat < 16) : ok0 pf := by
  refine ⟨fun i => ⟨fun a => ?_, Or.inl rfl⟩, fun i => ⟨fun a => ?_, Or.inl rfl⟩⟩
  · rw [map0_eq]
    have e0 := h0 (ent i); have e1 := h1 (ent i)
    match a with
    | ⟨0, _⟩ => show (0 + 1) * 1 ≤ 1; omega
    | ⟨1, _⟩ => show (0 + 1) * 2 ≤ 2; omega
    | ⟨2, _⟩ => show ((pf 0 (ent i) : BitVec 32).toNat + 1) * 256 ≤ 4096; omega
    | ⟨3, _⟩ => show ((pf 1 (ent i) : BitVec 32).toNat + 1) * 256 ≤ 4096; omega
  · rw [map1_eq]
    have e0 := h0 (ent i); have e1 := h1 (ent i)
    match a with
    | ⟨0, _⟩ => show (0 + 1) * 1 ≤ 1; omega
    | ⟨1, _⟩ => show (0 + 1) * 1 ≤ 1; omega
    | ⟨2, _⟩ => show ((pf 0 (ent i) : BitVec 32).toNat + 1) * 256 ≤ 4096; omega
    | ⟨3, _⟩ => show ((pf 1 (ent i) : BitVec 32).toNat + 1) * 256 ≤ 4096; omega

end Cert.Kernel.Tables

end
-- ==== Proof.OkBits.lean ====
/-
  The pipeline's side condition holds at every launch memory: the tables @main computes hold p i / 16 and p i % 16
  for positions p i < 256, both below 16.
-/
import proofs.«422418_j29910152249781_1_alg».proof.Proof.TablesBits
import proofs.«422418_j29910152249781_1_alg».proof.Proof.IndexMapsBits

set_option maxRecDepth 16384

noncomputable section

namespace Cert.Kernel.Tables

open Cert.Kernel Cert.Kernel.Gen Cert.Proof.ArgsortWords
open Idealize.ShloMosaic Idealize.ShloMosaic.TcCoe Idealize.SL.Sem

variable {F : FTy → Type} [FloatOps F]

variable (m : (ℓ : Loc nD τ sig) → Buf (Elt F) ℓ)

/-- Entry j of table 0 as a number: p j / 16. -/
theorem tbl0_toNat (j : S256.Idx) : (tbl m 0 j : BitVec 32).toNat = (pos m (j 0)).val / 16 := by
  have h := (pos m (j 0)).isLt
  rw [tbl0_apply, BitVec.toNat_ofNat]; omega

/-- Entry j of table 1 as a number: p j % 16. -/
theorem tbl1_toNat (j : S256.Idx) : (tbl m 1 j : BitVec 32).toNat = (pos m (j 0)).val % 16 := by
  have h := (pos m (j 0)).isLt
  rw [tbl1_apply, BitVec.toNat_ofNat]; omega

/-- THE SIDE CONDITION holds at every launch memory. -/
theorem ok : Ok m :=
  ok_of_lt (tbl m) (fun j => by have h := (pos m (j 0)).isLt; rw [tbl0_toNat]; omega)
    (fun j => by have h := (pos m (j 0)).isLt; rw [tbl1_toNat]; omega)

end Cert.Kernel.Tables

end
-- ==== Proof.TablesIdeal.lean ====
/-
  The two prefetched tables of the idealized kernel, read off the launch memory.

  @main computes `inv = argsort(perm)`, `ph = inv // 16` and `pw = inv % 16` before the pallas_call and hands `ph`, `pw`
  to it as scalar-prefetch tables.  Entry i of `inv` is the word of a position p i < 256 whatever `perm` holds (a sort
  only permutes 0 … 255), so ph[i] = p i / 16 and pw[i] = p i % 16 are both below 16: block (0, 0, ph[i], pw[i]) of
  256 × 256 patches lies inside the 4096 × 4096 planes at every grid point.  That is the pipeline's side condition on
  the tables, and it holds for EVERY launch memory: nothing is asked of `perm`.
-/
import proofs.«422418_j29910152249781_1_alg».proof.Proof.Gen.KernelIdeal.Frame
import proofs.«422418_j29910152249781_1_alg».proof.Proof.ArgsortWords
import Idealize.ShloMosaic.Lib.StableHlo.Run
import Idealize.ShloMosaic.Lib.SortFacts

set_option maxRecDepth 16384

noncomputable section

namespace Cert.KernelIdeal.Tables

open Cert.KernelIdeal Cert.KernelIdeal.Gen Cert.Proof.ArgsortWords
open Idealize.ShloMosaic Idealize.ShloMosaic.TcCoe Idealize.SL.Sem Idealize.ShloMosaic.StableHlo

variable {F : FTy → Type} [FloatOps F]
variable (m : (ℓ : Loc nD τ sig) → Buf (Elt F) ℓ)

/-- The keys: `perm` as launched (the program runs on one device). -/
abbrev keys : IVec S256 32 := m (((0 : Dev nD) : Thread nD τ).loc main_arg2)

/-- `p i`: the position behind entry i of `argsort(perm)`. -/
def pos (i : Fin 256) : Fin 256 := argPos (keys m) i

/-- `inv = argsort(perm)`, entry by entry. -/
abbrev inv : IVec S256 32 := (Host.sort2 S256 0 comparator_i32_i32_d0 (keys m) (iotaInDim S256 32 0)).2

theorem inv_apply (j : S256.Idx) : inv m j = BitVec.ofNat 32 (pos m (j 0)).val :=
  argsort256_apply (keys m) j

/-! ## The two tables as the host operations compute them from `inv` -/

/-- `floor_divide(x, 16)` on a vector of 256 words, operation by operation as @main lowers it. -/
def floorDiv16V (x : IVec S256 32) : IVec S256 32 :=
  let d : IVec S_ 32 := id (constantI S_ 32 16#32)
  let q : IVec S256 32 := Host.divsi x (broadcastInDim S256 ![] bcast_S_S256 d)
  select
    (andi (cmpi .ne (signi x) (broadcastInDim S256 ![] bcast_S_S256 (signi d)))
      (cmpi .ne (Host.remsi x (broadcastInDim S256 ![] bcast_S_S256 d)) (broadcastInDim S256 ![] bcast_S_S256 (constantI S_ 32 0#32))))
    (subi q (broadcastInDim S256 ![] bcast_S_S256 (constantI S_ 32 1#32)))
    q

/-- `remainder(x, 16)` on a vector of 256 words, operation by operation as @main lowers it. -/
def floorMod16V (x : IVec S256 32) : IVec S256 32 :=
  let d0 : IVec S_ 32 := id (constantI S_ 32 16#32)
  let d : IVec S_ 32 := select (cmpi .eq d0 (constantI S_ 32 0#32)) (constantI S_ 32 1#32) d0
  let r : IVec S256 32 := Host.remsi x (broadcastInDim S256 ![] bcast_S_S256 d)
  select
    (andi
      (cmpi .ne (cmpi .slt r (broadcastInDim S256 ![] bcast_S_S256 (constantI S_ 32 0#32)))
        (broadcastInDim S256 ![] bcast_S_S256 (cmpi .slt d (constantI S_ 32 0#32))))
      (cmpi .ne r (broadcastInDim S256 ![] bcast_S_S256 (constantI S_ 32 0#32))))
    (addi r (broadcastInDim S256 ![] bcast_S_S256 d))
    r

/-- Entry by entry the vector forms are the one-word forms (the argument a variable: nothing is evaluated). -/
theorem floorDiv16V_apply (x : IVec S256 32) (j : S256.Idx) : floorDiv16V x j = floorDiv16 (x j) := rfl
theorem floorMod16V_apply (x : IVec S256 32) (j : S256.Idx) : floorMod16V x j = floorMod16 (x j) := rfl

/-! ## Reading the two table buffers off the host prefix

The prefix is a fold over 43 operations.  It is cut after the argsort: for ANY contents `M` the remaining 40 operations
leave `floor_divide(M inv, 16)` and `remainder(M inv, 16)` in the table buffers (no sort in sight), and the three
operations of the argsort leave `inv` in its buffer. -/

/-- Operations run one stretch after the other. -/
theorem after_append (l₁ l₂ : List (HloOp τ sig (Elt F))) (M : Valuation τ sig (Elt F)) :
    StableHlo.after (l₁ ++ l₂) M = StableHlo.after l₂ (StableHlo.after l₁ M) := by
  induction l₁ generalizing M with
  | nil => rfl
  | cons op l ih => simp only [List.cons_append, StableHlo.after_cons, ih]

set_option maxHeartbeats 1000000 in
theorem tail_v1 (M : Valuation τ sig (Elt F)) :
    StableHlo.after (List.flatten [hostOps0_1, hostOps0_2, hostOps0_3, hostOps0_4]) M (Proc.devRef .tc main_v1)
      = floorDiv16V (M (Proc.devRef .tc main_v0)) := by
  simp only [hostOps0_1, hostOps0_2, hostOps0_3, hostOps0_4, List.flatten_cons, List.flatten_nil, List.append_nil, List.cons_append, List.nil_append]
  after_results
  rfl

set_option maxHeartbeats 1000000 in
theorem tail_v2 (M : Valuation τ sig (Elt F)) :
    StableHlo.after (List.flatten [hostOps0_1, hostOps0_2, hostOps0_3, hostOps0_4]) M (Proc.devRef .tc main_v2)
      = floorMod16V (M (Proc.devRef .tc main_v0)) := by
  simp only [hostOps0_1, hostOps0_2, hostOps0_3, hostOps0_4, List.flatten_cons, List.flatten_nil, List.append_nil, List.cons_append, List.nil_append]
  after_results
  rfl

/-- The argsort's three operations leave `inv` in its buffer. -/
theorem head_v0 : StableHlo.after hostOps0 (fun b => m ((0 : Dev nD), b)) (Proc.devRef .tc main_v0) = inv m := by
  simp only [hostOps0]
  after_results
  rfl

/-- The buffer the region finds table 0 in holds `floor_divide(inv, 16)`, -/
theorem v1_eq : V m (0 : Dev nD) main_v1 = floorDiv16V (inv m) := by
  unfold V
  rw [List.flatten_cons, after_append, tail_v1, head_v0]

/-- and table 1's holds `remainder(inv, 16)`. -/
theorem v2_eq : V m (0 : Dev nD) main_v2 = floorMod16V (inv m) := by
  unfold V
  rw [List.flatten_cons, after_append, tail_v2, head_v0]

/-- Table 0 at an entry: the word of p i / 16. -/
theorem tbl0_apply (j : S256.Idx) : (tbl m 0 j : BitVec 32) = BitVec.ofNat 32 ((pos m (j 0)).val / 16) := by
  have e : tbl m 0 = floorDiv16V (inv m) := (V_pre m 0 0).symm.trans (v1_eq m)
  rw [e, floorDiv16V_apply, inv_apply, floorDiv16_ofNat]

/-- Table 1 at an entry: the word of p i % 16. -/
theorem tbl1_apply (j : S256.Idx) : (tbl m 1 j : BitVec 32) = BitVec.ofNat 32 ((pos m (j 0)).val % 16) := by
  have e : tbl m 1 = floorMod16V (inv m) := (V_pre m 0 1).symm.trans (v2_eq m)
  rw [e, floorMod16V_apply, inv_apply, floorMod16_ofNat]

end Cert.KernelIdeal.Tables

end
-- ==== Proof.IndexMapsIdeal.lean ====
/-
  The two table-reading index maps in closed form, and when the tables satisfy the pipeline's side condition —
  for ANY contents of the tables (a variable here: nothing about the launch memory is used).

  At grid point i the maps of the two input windows load entry i of each table and return the block index
  (0, 0, ph[i], pw[i]).  With ph[i], pw[i] < 16 the block of sizes (1, C, 256, 256) ends at most at
  (1, C, 16 · 256, 16 · 256) = the array's extents: every block is inside its array.
-/
import proofs.«422418_j29910152249781_1_alg».proof.Proof.Gen.KernelIdeal.Frame
import Idealize.ShloMosaic.Lib.SortFacts

set_option maxRecDepth 16384

noncomputable section

namespace Cert.KernelIdeal.Tables

open Cert.KernelIdeal Cert.KernelIdeal.Gen
open Idealize.ShloMosaic Idealize.ShloMosaic.TcCoe Idealize.SL.Sem

variable {F : FTy → Type} [FloatOps F]

/-- The table entry a grid point reads: entry number `i 0`. -/
def ent (i : grid0.Coords) : S256.Idx := Shape.Idx.ofFin ⟨(i 0).val, (i 0).isLt⟩

theorem ent_zero (i : grid0.Coords) : ((ent i) 0).val = (i 0).val := rfl

/-- The grid coordinate, made a word and read back as an offset, is the coordinate (it is below 2³²). -/
theorem coord_toNat (i : grid0.Coords) : (Scalar.indexCast (BitVec.ofNat 32 (i 0).val)).toNat = (i 0).val := by
  have h : (i 0).val < 256 := (i 0).isLt
  show (BitVec.ofNat 32 (i 0).val).toNat = _
  rw [BitVec.toNat_ofNat]; omega

/-- A scalar load of table 0 at offset `i 0` reads entry `ent i`; -/
theorem at0 (pf : pre0.Contents (Elt F)) (i : grid0.Coords) (off : Fin 1 → Nat) (hoff : off 0 = (i 0).val)
    (inb : ∀ a, off a + S1.size a ≤ S256.size a) (h1 : S1.numel = 1) :
    pf.at 0 (Rect.unit (s := S256) off S1.size inb) h1 = pf 0 (ent i) := by
  show pf 0 ((Rect.unit (s := S256) off S1.size inb).emb (Shape.Idx.first _)) = pf 0 (ent i)
  refine congrArg (pf 0) (funext fun a => Fin.ext ?_)
  match a with
  | ⟨0, _⟩ => show off 0 + 1 * 0 = (i 0).val; omega

/-- and of table 1 alike. -/
theorem at1 (pf : pre0.Contents (Elt F)) (i : grid0.Coords) (off : Fin 1 → Nat) (hoff : off 0 = (i 0).val)
    (inb : ∀ a, off a + S1.size a ≤ S256.size a) (h1 : S1.numel = 1) :
    pf.at 1 (Rect.unit (s := S256) off S1.size inb) h1 = pf 1 (ent i) := by
  show pf 1 ((Rect.unit (s := S256) off S1.size inb).emb (Shape.Idx.first _)) = pf 1 (ent i)
  refine congrArg (pf 1) (funext fun a => Fin.ext ?_)
  match a with
  | ⟨0, _⟩ => show off 0 + 1 * 0 = (i 0).val; omega

/-- Window 0's index map: block (0, 0, ph[i], pw[i]). -/
theorem map0_eq (pf : pre0.Contents (Elt F)) (i : grid0.Coords) :
    cc0_transform_0 k0_off1_inb numel1_S1 pf i = ![0, 0, (pf 0 (ent i) : BitVec 32).toNat, (pf 1 (ent i) : BitVec 32).toNat] := by
  have e0 := at0 pf i ![(Scalar.indexCast (BitVec.ofNat 32 (i 0).val)).toNat] (coord_toNat i) (k0_off1_inb i) numel1_S1
  have e1 := at1 pf i ![(Scalar.indexCast (BitVec.ofNat 32 (i 0).val)).toNat] (coord_toNat i) (k0_off1_inb i) numel1_S1
  show ![(0#32 : BitVec 32).toNat, (0#32 : BitVec 32).toNat,
      (pf.at 0 (Rect.unit (s := S256) ![(Scalar.indexCast (BitVec.ofNat 32 (i 0).val)).toNat] S1.size (k0_off1_inb i)) numel1_S1 : BitVec 32).toNat,
      (pf.at 1 (Rect.unit (s := S256) ![(Scalar.indexCast (BitVec.ofNat 32 (i 0).val)).toNat] S1.size (k0_off1_inb i)) numel1_S1 : BitVec 32).toNat] = _
  rw [e0, e1]
  rfl

/-- Window 1's index map: the same block index. -/
theorem map1_eq (pf : pre0.Contents (Elt F)) (i : grid0.Coords) :
    cc0_transform_1 k0_off1_inb numel1_S1 pf i = ![0, 0, (pf 0 (ent i) : BitVec 32).toNat, (pf 1 (ent i) : BitVec 32).toNat] := by
  have e0 := at0 pf i ![(Scalar.indexCast (BitVec.ofNat 32 (i 0).val)).toNat] (coord_toNat i) (k0_off1_inb i) numel1_S1
  have e1 := at1 pf i ![(Scalar.indexCast (BitVec.ofNat 32 (i 0).val)).toNat] (coord_toNat i) (k0_off1_inb i) numel1_S1
  show ![(0#32 : BitVec 32).toNat, (0#32 : BitVec 32).toNat,
      (pf.at 0 (Rect.unit (s := S256) ![(Scalar.indexCast (BitVec.ofNat 32 (i 0).val)).toNat] S1.size (k0_off1_inb i)) numel1_S1 : BitVec 32).toNat,
      (pf.at 1 (Rect.unit (s := S256) ![(Scalar.indexCast (BitVec.ofNat 32 (i 0).val)).toNat] S1.size (k0_off1_inb i)) numel1_S1 : BitVec 32).toNat] = _
  rw [e0, e1]
  rfl

/-- Tables whose entries are all below 16 satisfy the pipeline's side condition. -/
theorem ok_of_lt (pf : pre0.Contents (Elt F)) (h0 : ∀ j : S256.Idx, (pf 0 j : BitVec 32).toNat < 16)
    (h1 : ∀ j : S256.Idx, (pf 1 j : BitVec 32).toNat < 16) : ok0 pf := by
  refine ⟨fun i => ⟨fun a => ?_, Or.inl rfl⟩, fun i => ⟨fun a => ?_, Or.inl rfl⟩⟩
  · rw [map0_eq]
    have e0 := h0 (ent i); have e1 := h1 (ent i)
    match a with
    | ⟨0, _⟩ => show (0 + 1) * 1 ≤ 1; omega
    | ⟨1, _⟩ => show (0 + 1) * 2 ≤ 2; omega
    | ⟨2, _⟩ => show ((pf 0 (ent i) : BitVec 32).toNat + 1) * 256 ≤ 4096; omega
    | ⟨3, _⟩ => show ((pf 1 (ent i) : BitVec 32).toNat + 1) * 256 ≤ 4096; omega
  · rw [map1_eq]
    have e0 := h0 (ent i); have e1 := h1 (ent i)
    match a with
    | ⟨0, _⟩ => show (0 + 1) * 1 ≤ 1; omega
    | ⟨1, _⟩ => show (0 + 1) * 1 ≤ 1; omega
    | ⟨2, _⟩ => show ((pf 0 (ent i) : BitVec 32).toNat + 1) * 256 ≤ 4096; omega
    | ⟨3, _⟩ => show ((pf 1 (ent i) : BitVec 32).toNat + 1) * 256 ≤ 4096; omega

end Cert.KernelIdeal.Tables

end
-- ==== Proof.OkIdeal.lean ====
/-
  The pipeline's side condition holds at every launch memory: the tables @main computes hold p i / 16 and p i % 16
  for positions p i < 256, both below 16.
-/
import proofs.«422418_j29910152249781_1_alg».proof.Proof.TablesIdeal
import proofs.«422418_j29910152249781_1_alg».proof.Proof.IndexMapsIdeal

set_option maxRecDepth 16384

noncomputable section

namespace Cert.KernelIdeal.Tables

open Cert.KernelIdeal Cert.KernelIdeal.Gen Cert.Proof.ArgsortWords
open Idealize.ShloMosaic Idealize.ShloMosaic.TcCoe Idealize.SL.Sem

variable {F : FTy → Type} [FloatOps F]

variable (m : (ℓ : Loc nD τ sig) → Buf (Elt F) ℓ)

/-- Entry j of table 0 as a number: p j / 16. -/
theorem tbl0_toNat (j : S256.Idx) : (tbl m 0 j : BitVec 32).toNat = (pos m (j 0)).val / 16 := by
  have h := (pos m (j 0)).isLt
  rw [tbl0_apply, BitVec.toNat_ofNat]; omega

/-- Entry j of table 1 as a number: p j % 16. -/
theorem tbl1_toNat (j : S256.Idx) : (tbl m 1 j : BitVec 32).toNat = (pos m (j 0)).val % 16 := by
  have h := (pos m (j 0)).isLt
  rw [tbl1_apply, BitVec.toNat_ofNat]; omega

/-- THE SIDE CONDITION holds at every launch memory. -/
theorem ok : Ok m :=
  ok_of_lt (tbl m) (fun j => by have h := (pos m (j 0)).isLt; rw [tbl0_toNat]; omega)
    (fun j => by have h := (pos m (j 0)).isLt; rw [tbl1_toNat]; omega)

end Cert.KernelIdeal.Tables

end
-- ==== Proof.PatchSpec.lean ====
/-
  The specification: gathering 256 × 256 patches of a stack of 4096 × 4096 planes by a table of positions.

  The planes are cut into a 16 × 16 grid of 256 × 256 patches; patch number q (row-major) is the one at grid row
  q / 16 and grid column q % 16.  Given a table `p` of 256 patch numbers, the result's slot i holds patch p i of every
  plane:

      out[i, ch, r, c] = x[0, ch, (p i / 16) · 256 + r, (p i % 16) · 256 + c].

  Stated for any number C of planes: the two operands of the kernel have C = 2 and C = 1.
-/
import Idealize.ShloMosaic.PureOps

namespace Cert.Proof.PatchSpec

open Idealize.ShloMosaic

/-- The planes and the stack of gathered patches. -/
abbrev Planes (C : Nat) : Shape := ⟨4, ![1, C, 4096, 4096]⟩
abbrev Patches (C : Nat) : Shape := ⟨4, ![256, C, 256, 256]⟩

/-- Where element (ch, r, c) of patch number q lives in the planes. -/
def src {C : Nat} (q : Fin 256) (ch : Fin C) (r c : Fin 256) : (Planes C).Idx := fun a => match a with
  | ⟨0, _⟩ => ⟨0, Nat.one_pos⟩
  | ⟨1, _⟩ => ⟨ch.val, ch.isLt⟩
  | ⟨2, _⟩ => ⟨q.val / 16 * 256 + r.val, by have := q.isLt; have := r.isLt; show _ < 4096; omega⟩
  | ⟨3, _⟩ => ⟨q.val % 16 * 256 + c.val, by have := q.isLt; have := c.isLt; show _ < 4096; omega⟩

/-- An index of the stack of patches from its four coordinates. -/
def slot {C : Nat} (i : Fin 256) (ch : Fin C) (r c : Fin 256) : (Patches C).Idx := fun a => match a with
  | ⟨0, _⟩ => ⟨i.val, i.isLt⟩
  | ⟨1, _⟩ => ⟨ch.val, ch.isLt⟩
  | ⟨2, _⟩ => ⟨r.val, r.isLt⟩
  | ⟨3, _⟩ => ⟨c.val, c.isLt⟩

theorem eq_slot {C : Nat} (j : (Patches C).Idx) :
    j = slot ⟨(j 0).val, (j 0).isLt⟩ ⟨(j 1).val, (j 1).isLt⟩ ⟨(j 2).val, (j 2).isLt⟩ ⟨(j 3).val, (j 3).isLt⟩ :=
  funext fun a => by
    match a with
    | ⟨0, _⟩ => rfl
    | ⟨1, _⟩ => rfl
    | ⟨2, _⟩ => rfl
    | ⟨3, _⟩ => rfl

/-- THE RESULT both programs compute: slot i holds patch `p i` of every plane. -/
def gathered {α : Type} {C : Nat} (x : (Planes C).Idx → α) (p : Fin 256 → Fin 256) : (Patches C).Idx → α :=
  fun j => x (src (p ⟨(j 0).val, (j 0).isLt⟩) ⟨(j 1).val, (j 1).isLt⟩ ⟨(j 2).val, (j 2).isLt⟩ ⟨(j 3).val, (j 3).isLt⟩)

theorem gathered_slot {α : Type} {C : Nat} (x : (Planes C).Idx → α) (p : Fin 256 → Fin 256) (i : Fin 256) (ch : Fin C) (r c : Fin 256) :
    gathered x p (slot i ch r c) = x (src (p i) ch r c) := rfl

end Cert.Proof.PatchSpec
-- ==== Proof.BlocksIdeal.lean ====
/-
  Where each block sits, for any admissible contents of the tables.

  At grid point t the pipeline fetches, for each input window, the block of sizes (1, C, 256, 256) at block index
  (0, 0, ph[t], pw[t]), and writes back, for each output window, the block at block index (t, 0, 0, 0).  Element
  (y₀, y₁, y₂, y₃) of a block at block index b is array element bₖ · sizeₖ + yₖ on each axis.  With ph[t] = p t / 16 and
  pw[t] = p t % 16 the input block's element (·, ch, r, c) is the planes' element of patch number p t, and the output
  block's is slot t of the result: the body's copy makes slot t patch p t.
-/
import proofs.«422418_j29910152249781_1_alg».proof.Proof.IndexMapsIdeal
import proofs.«422418_j29910152249781_1_alg».proof.Proof.PatchSpec
import Idealize.ShloMosaic.Lib.Pipeline.Value

set_option maxRecDepth 16384

noncomputable section

namespace Cert.KernelIdeal.Blocks

open Cert.KernelIdeal Cert.KernelIdeal.Gen Cert.KernelIdeal.Tables Cert.Proof.PatchSpec
open Idealize.ShloMosaic Idealize.ShloMosaic.TcCoe Idealize.SL.Sem

variable {F : FTy → Type} [FloatOps F]

/-- On the one-axis grid of 256 points, point t has coordinate t. -/
theorem coords_val : ∀ t : Fin grid0.N, (grid0.coords t 0).val = t.val := by decide +kernel

/-- The point as a slot number. -/
def slotOf (t : Fin grid0.N) : Fin 256 := ⟨t.val, t.isLt⟩

theorem ent_coords (t : Fin grid0.N) : (ent (grid0.coords t)) 0 = slotOf t := Fin.ext (coords_val t)

/-- Input window 0's block at point t, element y: the planes' element of patch number p t. -/
theorem src0 (a : (pcfg0 (F := F)).Adm) (t : Fin (cfg0 a).N) (p : Fin 256 → Fin 256)
    (h0 : ∀ j : S256.Idx, (a.1 0 j : BitVec 32).toNat = (p (j 0)).val / 16)
    (h1 : ∀ j : S256.Idx, (a.1 1 j : BitVec 32).toNat = (p (j 0)).val % 16) (y : S1x2x256x256.Idx) :
    (((cfg0 a).win 0).blk t).view.emb y = src (C := 2) (p (slotOf t)) ⟨(y 1).val, (y 1).isLt⟩ ⟨(y 2).val, (y 2).isLt⟩ ⟨(y 3).val, (y 3).isLt⟩ := by
  have e : ((cfg0 a).win 0).index t = cc0_transform_0 k0_off1_inb numel1_S1 a.1 (grid0.coords t) := rfl
  have hy0 : (y 0).val < 1 := (y 0).isLt
  have g0 := h0 (ent (grid0.coords t)); have g1 := h1 (ent (grid0.coords t))
  rw [ent_coords] at g0 g1
  funext k
  apply Fin.ext
  match k with
  | ⟨0, _⟩ =>
    show ((cfg0 a).win 0).index t (0 : Fin 4) * 1 + 1 * (y 0).val = 0
    rw [e, map0_eq]; show 0 * 1 + 1 * (y 0).val = 0; omega
  | ⟨1, _⟩ =>
    show ((cfg0 a).win 0).index t (1 : Fin 4) * 2 + 1 * (y 1).val = (y 1).val
    rw [e, map0_eq]; show 0 * 2 + 1 * (y 1).val = (y 1).val; omega
  | ⟨2, _⟩ =>
    show ((cfg0 a).win 0).index t (2 : Fin 4) * 256 + 1 * (y 2).val = (p (slotOf t)).val / 16 * 256 + (y 2).val
    rw [e, map0_eq]; show (a.1 0 (ent (grid0.coords t)) : BitVec 32).toNat * 256 + 1 * (y 2).val = _; rw [g0]; omega
  | ⟨3, _⟩ =>
    show ((cfg0 a).win 0).index t (3 : Fin 4) * 256 + 1 * (y 3).val = (p (slotOf t)).val % 16 * 256 + (y 3).val
    rw [e, map0_eq]; show (a.1 1 (ent (grid0.coords t)) : BitVec 32).toNat * 256 + 1 * (y 3).val = _; rw [g1]; omega

/-- Input window 1's block at point t, element y: the one plane's element of patch number p t. -/
theorem src1 (a : (pcfg0 (F := F)).Adm) (t : Fin (cfg0 a).N) (p : Fin 256 → Fin 256)
    (h0 : ∀ j : S256.Idx, (a.1 0 j : BitVec 32).toNat = (p (j 0)).val / 16)
    (h1 : ∀ j : S256.Idx, (a.1 1 j : BitVec 32).toNat = (p (j 0)).val % 16) (y : S1x1x256x256.Idx) :
    (((cfg0 a).win 1).blk t).view.emb y = src (C := 1) (p (slotOf t)) ⟨(y 1).val, (y 1).isLt⟩ ⟨(y 2).val, (y 2).isLt⟩ ⟨(y 3).val, (y 3).isLt⟩ := by
  have e : ((cfg0 a).win 1).index t = cc0_transform_1 k0_off1_inb numel1_S1 a.1 (grid0.coords t) := rfl
  have hy0 : (y 0).val < 1 := (y 0).isLt
  have g0 := h0 (ent (grid0.coords t)); have g1 := h1 (ent (grid0.coords t))
  rw [ent_coords] at g0 g1
  funext k
  apply Fin.ext
  match k with
  | ⟨0, _⟩ =>
    show ((cfg0 a).win 1).index t (0 : Fin 4) * 1 + 1 * (y 0).val = 0
    rw [e, map1_eq]; show 0 * 1 + 1 * (y 0).val = 0; omega
  | ⟨1, _⟩ =>
    show ((cfg0 a).win 1).index t (1 : Fin 4) * 1 + 1 * (y 1).val = (y 1).val
    rw [e, map1_eq]; show 0 * 1 + 1 * (y 1).val = (y 1).val; omega
  | ⟨2, _⟩ =>
    show ((cfg0 a).win 1).index t (2 : Fin 4) * 256 + 1 * (y 2).val = (p (slotOf t)).val / 16 * 256 + (y 2).val
    rw [e, map1_eq]; show (a.1 0 (ent (grid0.coords t)) : BitVec 32).toNat * 256 + 1 * (y 2).val = _; rw [g0]; omega
  | ⟨3, _⟩ =>
    show ((cfg0 a).win 1).index t (3 : Fin 4) * 256 + 1 * (y 3).val = (p (slotOf t)).val % 16 * 256 + (y 3).val
    rw [e, map1_eq]; show (a.1 1 (ent (grid0.coords t)) : BitVec 32).toNat * 256 + 1 * (y 3).val = _; rw [g1]; omega

/-- The grid coordinate as a word, read back as a block index, is the point's number. -/
theorem coord_word (t : Fin grid0.N) : (BitVec.ofNat 32 (grid0.coords t 0).val).toNat = t.val := by
  have h : t.val < 256 := t.isLt
  rw [coords_val, BitVec.toNat_ofNat]; omega

/-- Output window 2's block at point t, element y: slot t of the result. -/
theorem dst2 (a : (pcfg0 (F := F)).Adm) (t : Fin (cfg0 a).N) (y : S1x2x256x256.Idx) :
    (((cfg0 a).win 2).blk t).view.emb y = slot (C := 2) (slotOf t) ⟨(y 1).val, (y 1).isLt⟩ ⟨(y 2).val, (y 2).isLt⟩ ⟨(y 3).val, (y 3).isLt⟩ := by
  have hy0 : (y 0).val < 1 := (y 0).isLt
  have hw := coord_word t
  funext k
  apply Fin.ext
  match k with
  | ⟨0, _⟩ => show (BitVec.ofNat 32 (grid0.coords t 0).val).toNat * 1 + 1 * (y 0).val = t.val; omega
  | ⟨1, _⟩ => show (0#32 : BitVec 32).toNat * 2 + 1 * (y 1).val = (y 1).val; show 0 * 2 + 1 * (y 1).val = (y 1).val; omega
  | ⟨2, _⟩ => show (0#32 : BitVec 32).toNat * 256 + 1 * (y 2).val = (y 2).val; show 0 * 256 + 1 * (y 2).val = (y 2).val; omega
  | ⟨3, _⟩ => show (0#32 : BitVec 32).toNat * 256 + 1 * (y 3).val = (y 3).val; show 0 * 256 + 1 * (y 3).val = (y 3).val; omega

/-- Output window 3's block at point t, element y: slot t of the one-plane result. -/
theorem dst3 (a : (pcfg0 (F := F)).Adm) (t : Fin (cfg0 a).N) (y : S1x1x256x256.Idx) :
    (((cfg0 a).win 3).blk t).view.emb y = slot (C := 1) (slotOf t) ⟨(y 1).val, (y 1).isLt⟩ ⟨(y 2).val, (y 2).isLt⟩ ⟨(y 3).val, (y 3).isLt⟩ := by
  have hy0 : (y 0).val < 1 := (y 0).isLt
  have hw := coord_word t
  funext k
  apply Fin.ext
  match k with
  | ⟨0, _⟩ => show (BitVec.ofNat 32 (grid0.coords t 0).val).toNat * 1 + 1 * (y 0).val = t.val; omega
  | ⟨1, _⟩ => show (0#32 : BitVec 32).toNat * 1 + 1 * (y 1).val = (y 1).val; show 0 * 1 + 1 * (y 1).val = (y 1).val; omega
  | ⟨2, _⟩ => show (0#32 : BitVec 32).toNat * 256 + 1 * (y 2).val = (y 2).val; show 0 * 256 + 1 * (y 2).val = (y 2).val; omega
  | ⟨3, _⟩ => show (0#32 : BitVec 32).toNat * 256 + 1 * (y 3).val = (y 3).val; show 0 * 256 + 1 * (y 3).val = (y 3).val; omega

/-! ## What a point writes back is its block of the gathered result -/

/-- Input block 0 at point t, written back as output block 2, is block t of `gathered X p`. -/
theorem copy2 (a : (pcfg0 (F := F)).Adm) (t : Fin (cfg0 a).N) (p : Fin 256 → Fin 256)
    (h0 : ∀ j : S256.Idx, (a.1 0 j : BitVec 32).toNat = (p (j 0)).val / 16)
    (h1 : ∀ j : S256.Idx, (a.1 1 j : BitVec 32).toNat = (p (j 0)).val % 16)
    (X : (Planes 2).Idx → Elt F .f32) (y : S1x2x256x256.Idx) :
    X ((((cfg0 a).win 0).blk t).view.emb y) = gathered X p ((((cfg0 a).win 2).blk t).view.emb y) := by
  rw [src0 a t p h0 h1 y, dst2 a t y, gathered_slot]

theorem copy3 (a : (pcfg0 (F := F)).Adm) (t : Fin (cfg0 a).N) (p : Fin 256 → Fin 256)
    (h0 : ∀ j : S256.Idx, (a.1 0 j : BitVec 32).toNat = (p (j 0)).val / 16)
    (h1 : ∀ j : S256.Idx, (a.1 1 j : BitVec 32).toNat = (p (j 0)).val % 16)
    (X : (Planes 1).Idx → Elt F .f32) (y : S1x1x256x256.Idx) :
    X ((((cfg0 a).win 1).blk t).view.emb y) = gathered X p ((((cfg0 a).win 3).blk t).view.emb y) := by
  rw [src1 a t p h0 h1 y, dst3 a t y, gathered_slot]

/-! ## The output blocks cover the results: index i lies in the block of point i₀ -/

theorem cover2 (a : (pcfg0 (F := F)).Adm) (i : S256x2x256x256.Idx) :
    ∃ t : Fin (cfg0 a).N, ((cfg0 a).win 2).flush t = true ∧ i ∈ (((cfg0 a).win 2).blk t).view.set := by
  obtain ⟨t, ht⟩ : ∃ t : Fin (cfg0 a).N, t.val = (i 0).val := ⟨⟨(i 0).val, (i 0).isLt⟩, rfl⟩
  refine ⟨t, flush0_2 a t, ?_⟩
  have hs : (((cfg0 a).win 2).blk t).view.set = (((cfg0 a).win 2).rect t).set := View.set_slice_whole main_v3_0 _
  rw [hs]
  have hw := coord_word t
  have h1 : (i 1).val < 2 := (i 1).isLt
  have h2 : (i 2).val < 256 := (i 2).isLt
  have h3 : (i 3).val < 256 := (i 3).isLt
  refine Rect.mem_set_unit.mpr fun k => ?_
  match k with
  | ⟨0, _⟩ =>
    show (BitVec.ofNat 32 (grid0.coords t 0).val).toNat * 1 ≤ (i 0).val ∧ (i 0).val < (BitVec.ofNat 32 (grid0.coords t 0).val).toNat * 1 + 1
    rw [hw, ht]; omega
  | ⟨1, _⟩ => show 0 * 2 ≤ (i 1).val ∧ (i 1).val < 0 * 2 + 2; omega
  | ⟨2, _⟩ => show 0 * 256 ≤ (i 2).val ∧ (i 2).val < 0 * 256 + 256; omega
  | ⟨3, _⟩ => show 0 * 256 ≤ (i 3).val ∧ (i 3).val < 0 * 256 + 256; omega

theorem cover3 (a : (pcfg0 (F := F)).Adm) (i : S256x1x256x256.Idx) :
    ∃ t : Fin (cfg0 a).N, ((cfg0 a).win 3).flush t = true ∧ i ∈ (((cfg0 a).win 3).blk t).view.set := by
  obtain ⟨t, ht⟩ : ∃ t : Fin (cfg0 a).N, t.val = (i 0).val := ⟨⟨(i 0).val, (i 0).isLt⟩, rfl⟩
  refine ⟨t, flush0_3 a t, ?_⟩
  have hs : (((cfg0 a).win 3).blk t).view.set = (((cfg0 a).win 3).rect t).set := View.set_slice_whole main_v3_1 _
  rw [hs]
  have hw := coord_word t
  have h1 : (i 1).val < 1 := (i 1).isLt
  have h2 : (i 2).val < 256 := (i 2).isLt
  have h3 : (i 3).val < 256 := (i 3).isLt
  refine Rect.mem_set_unit.mpr fun k => ?_
  match k with
  | ⟨0, _⟩ =>
    show (BitVec.ofNat 32 (grid0.coords t 0).val).toNat * 1 ≤ (i 0).val ∧ (i 0).val < (BitVec.ofNat 32 (grid0.coords t 0).val).toNat * 1 + 1
    rw [hw, ht]; omega
  | ⟨1, _⟩ => show 0 * 1 ≤ (i 1).val ∧ (i 1).val < 0 * 1 + 1; omega
  | ⟨2, _⟩ => show 0 * 256 ≤ (i 2).val ∧ (i 2).val < 0 * 256 + 256; omega
  | ⟨3, _⟩ => show 0 * 256 ≤ (i 3).val ∧ (i 3).val < 0 * 256 + 256; omega

end Cert.KernelIdeal.Blocks

end
-- ==== Proof.KernelValue.lean ====
/-
  The idealized kernel's two results, as whole arrays.

  The body copies each input block to the matching output block.  At grid point t the input blocks are patch number
  p t of the planes and the output blocks are slot t of the results (Blocks), so what point t writes back is block t of
  `gathered planes p`; the 256 output blocks cover the results, so each result array ends as `gathered planes p`.
  Here `p` is any table of positions with ph = p / 16 and pw = p % 16 entry by entry; the certificate instantiates it at
  the argsort's positions.
-/
import proofs.«422418_j29910152249781_1_alg».proof.Proof.BlocksIdeal

set_option maxRecDepth 16384

noncomputable section

namespace Cert.KernelIdeal.KValue

open Cert.KernelIdeal Cert.KernelIdeal.Gen Cert.KernelIdeal.Tables Cert.KernelIdeal.Blocks Cert.Proof.PatchSpec
open Idealize.ShloMosaic Idealize.ShloMosaic.TcCoe Idealize.ShloMosaic.Tactic Idealize.SL.Sem
open Idealize.ShloMosaic.Pipeline (Dat)

variable {F : FTy → Type} [FloatOps F]

/-! ## The body is a copy -/

theorem zero4 : (![0, 0, 0, 0] : Fin 4 → Nat) = fun _ => 0 := funext fun a => by fin_cases a <;> rfl

/-- Output 2's staging buffer ends holding input 0's block: one store of the whole loaded block. -/
theorem out2_eq (c : Dev nD) (i : grid0.Coords) (arg3 : Memref sig .tc .vmem S1x2x256x256 .f32) (harg3 : arg3.IsWhole) (arg4 : Memref sig .tc .vmem S1x1x256x256 .f32) (harg4 : arg4.IsWhole) (arg5 : Memref sig .tc .vmem S1x2x256x256 .f32) (harg5 : arg5.IsWhole) (arg6 : Memref sig .tc .vmem S1x1x256x256 .f32) (harg6 : arg6.IsWhole)
    (x0 : Vec F S1x2x256x256 .f32) (x1 : Vec F S1x1x256x256 .f32) (xt0 : TbBuf0 (F := F) c tbM0_0) (xt1 : TbBuf0 (F := F) c tbM0_1) :
    out0_A_2 c i arg3 harg3 arg4 harg4 arg5 harg5 arg6 harg6 x0 x1 xt0 xt1 = x0 := by
  unfold out0_A_2
  rw [View.read_writes_eq_canon _ _ _ (cover0_A_2 c i arg3 harg3 arg4 harg4 arg5 harg5 arg6 harg6 x0 x1 xt0 xt1)]
  unfold kernelRun0_A
  dsimp only
  rw [View.canon_unit_zero zero4]
  simp only [View.readAt_eq_ld, harg3.read_unread, View.ld_unit_zero (S := S1x2x256x256) zero4]

/-- Output 3's staging buffer ends holding input 1's block. -/
theorem out3_eq (c : Dev nD) (i : grid0.Coords) (arg3 : Memref sig .tc .vmem S1x2x256x256 .f32) (harg3 : arg3.IsWhole) (arg4 : Memref sig .tc .vmem S1x1x256x256 .f32) (harg4 : arg4.IsWhole) (arg5 : Memref sig .tc .vmem S1x2x256x256 .f32) (harg5 : arg5.IsWhole) (arg6 : Memref sig .tc .vmem S1x1x256x256 .f32) (harg6 : arg6.IsWhole)
    (x0 : Vec F S1x2x256x256 .f32) (x1 : Vec F S1x1x256x256 .f32) (xt0 : TbBuf0 (F := F) c tbM0_0) (xt1 : TbBuf0 (F := F) c tbM0_1) :
    out0_A_3 c i arg3 harg3 arg4 harg4 arg5 harg5 arg6 harg6 x0 x1 xt0 xt1 = x1 := by
  unfold out0_A_3
  rw [View.read_writes_eq_canon _ _ _ (cover0_A_3 c i arg3 harg3 arg4 harg4 arg5 harg5 arg6 harg6 x0 x1 xt0 xt1)]
  unfold kernelRun0_A
  dsimp only
  rw [View.canon_unit_zero zero4]
  simp only [View.readAt_eq_ld, harg4.read_unread, View.ld_unit_zero (S := S1x1x256x256) zero4]

/-! ## What each point writes back, and the arrays after the run -/

variable (m : (ℓ : Loc nD τ sig) → Buf (Elt F) ℓ) (ρ : Dev nD → PrngReg)
variable (hO : Ok m) (p : Fin 256 → Fin 256)
variable (h0 : ∀ j : S256.Idx, (tbl m 0 j : BitVec 32).toNat = (p (j 0)).val / 16)
variable (h1 : ∀ j : S256.Idx, (tbl m 1 j : BitVec 32).toNat = (p (j 0)).val % 16)

/-- The planes as the region finds them. -/
abbrev X0 (c : Dev nD) : (Planes 2).Idx → Elt F .f32 := V m c main_arg0
abbrev X1 (c : Dev nD) : (Planes 1).Idx → Elt F .f32 := V m c main_arg1

include h0 h1 in
/-- Point t writes back block t of `gathered planes p` (two planes). -/
theorem flushed2_eq (c : Dev nD) (t : Fin (cfgM m hO).N) :
    (dats m hO 0 c).flushed 2 t = (((cfgM m hO).win 2).blk t).view.read (Elt F) (gathered (X0 m c) p) := by
  show ((cfgM m hO).win 2).cut ((cfgM m hO).grid.coords t) ((dats m hO 0 c).after 2 t) = _
  rw [after0_2]
  unfold outsAt0
  dsimp only
  funext y
  exact (congrFun (out2_eq c (grid0.coords t) (ms0_0 m hO t) (hs0_0 m hO t) (ms0_1 m hO t) (hs0_1 m hO t) (ms0_2 m hO t) (hs0_2 m hO t)
    (ms0_3 m hO t) (hs0_3 m hO t) (iblk m hO c 0 t) (iblk m hO c 1 t) (tbl m 0) (tbl m 1)) y).trans (copy2 (adm m hO) t p h0 h1 (X0 m c) y)

include h0 h1 in
/-- Point t writes back block t of `gathered planes p` (one plane). -/
theorem flushed3_eq (c : Dev nD) (t : Fin (cfgM m hO).N) :
    (dats m hO 0 c).flushed 3 t = (((cfgM m hO).win 3).blk t).view.read (Elt F) (gathered (X1 m c) p) := by
  show ((cfgM m hO).win 3).cut ((cfgM m hO).grid.coords t) ((dats m hO 0 c).after 3 t) = _
  rw [after0_3]
  unfold outsAt0
  dsimp only
  funext y
  exact (congrFun (out3_eq c (grid0.coords t) (ms0_0 m hO t) (hs0_0 m hO t) (ms0_1 m hO t) (hs0_1 m hO t) (ms0_2 m hO t) (hs0_2 m hO t)
    (ms0_3 m hO t) (hs0_3 m hO t) (iblk m hO c 0 t) (iblk m hO c 1 t) (tbl m 0) (tbl m 1)) y).trans (copy3 (adm m hO) t p h0 h1 (X1 m c) y)

include h0 h1 in
theorem final2 (c : Dev nD) : (dats m hO 0 c).arrAt 2 (cfgM m hO).N = gathered (X0 m c) p :=
  (dats m hO 0 c).arrAt_eq_of_cover 2 (gathered (X0 m c) p) (fun t _ => flushed2_eq m hO p h0 h1 c t) (cover2 (adm m hO))

include h0 h1 in
theorem final3 (c : Dev nD) : (dats m hO 0 c).arrAt 3 (cfgM m hO).N = gathered (X1 m c) p :=
  (dats m hO 0 c).arrAt_eq_of_cover 3 (gathered (X1 m c) p) (fun t _ => flushed3_eq m hO p h0 h1 c t) (cover3 (adm m hO))

include hO h0 h1 in
/-- THE KERNEL'S RUN with both results named: each is `gathered` of the launched planes at `p`; the arguments unchanged. -/
theorem run : θ_run defs (onTc (τ := τ) (main (F := F))) ⟨m, fun _ => 0, ρ⟩ fun r => ∀ c : Dev nD,
      r.2.mem ((c.tc : Thread nD τ).loc main_v3_0) = gathered (C := 2) (m ((c.tc : Thread nD τ).loc main_arg0)) p
      ∧ r.2.mem ((c.tc : Thread nD τ).loc main_v3_1) = gathered (C := 1) (m ((c.tc : Thread nD τ).loc main_arg1)) p
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have H := run_main m ρ hO
  refine (θ_run defs _ _).mono (fun _ hq c => ?_) H
  refine ⟨((hq c).1 2).trans ((final2 m hO p h0 h1 c).trans ?_), ((hq c).1 3).trans ((final3 m hO p h0 h1 c).trans ?_),
    ((hq c).1 0).trans (((dats m hO 0 c).arrAt_in 0 rfl _).trans ((A_eq m hO c 0).trans (V_main_arg0 m c))),
    ((hq c).1 1).trans (((dats m hO 0 c).arrAt_in 1 rfl _).trans ((A_eq m hO c 1).trans (V_main_arg1 m c))),
    ((hq c).2 main_arg2 (by decide : main_arg2 ∈ Pipeline.restRefs sig spec0)).trans (V_main_arg2 m c)⟩
  · exact congrArg (fun x => gathered (C := 2) x p) (V_main_arg0 m c)
  · exact congrArg (fun x => gathered (C := 1) x p) (V_main_arg1 m c)

end Cert.KernelIdeal.KValue

end
-- ==== Proof.RefValue.lean ====
/-
  The reference, read at an index.

  `_to_patches` reshapes the planes [1, C, 4096, 4096] → [C, 4096, 4096] → [C, 16, 256, 16, 256], transposes to
  [16, 16, C, 256, 256] and reshapes to [256, C, 256, 256]: element (q, ch, r, c) of the result is element
  (0, ch, (q / 16) · 256 + r, (q % 16) · 256 + c) of the planes — patch number q.  `px[inv]` is a gather along the
  leading axis at the start index inv[i], wrapped by 256 when negative and clamped into 0 … 255; inv[i] is the word of
  a position below 256, so neither the wrap nor the clamp changes it.  Hence the reference's result is the
  specification's `gathered` at the argsort's positions.
-/
import proofs.«422418_j29910152249781_1_alg».proof.Proof.Gen.ReferenceIdeal.Read
import proofs.«422418_j29910152249781_1_alg».proof.Proof.ArgsortWords
import proofs.«422418_j29910152249781_1_alg».proof.Proof.PatchSpec
import Idealize.ShloMosaic.Lib.ValueIdx

set_option maxRecDepth 16384

noncomputable section

namespace Cert.ReferenceIdeal.RefValue

open Cert.ReferenceIdeal Cert.ReferenceIdeal.Gen Cert.ReferenceIdeal.Read Cert.Proof.ArgsortWords Cert.Proof.PatchSpec
open Idealize.ShloMosaic Idealize.ShloMosaic.TcCoe Idealize.SL.Sem Idealize.ShloMosaic.ValueIdx

variable {F : FTy → Type} [FloatOps F]

/-! ## The argsort and the wrapped start index -/

/-- `inv[i]` is the word of the position `argPos keys i`. -/
theorem v0_apply (keys : IVec S256 32) (i : S256.Idx) :
    val_main_v0 (F := F) keys i = BitVec.ofNat 32 (argPos keys (i 0)).val := by
  unfold val_main_v0 val_main_call0_v0
  exact argsort256_apply keys i

/-- The start-indices index of slot i: (i, 0). -/
def six (i : Fin 256) : S256x1.Idx := fun k => match k with
  | ⟨0, _⟩ => ⟨i.val, i.isLt⟩
  | ⟨1, _⟩ => ⟨0, Nat.one_pos⟩

/-- The wrapped start index of slot i, signed and clamped into 0 … 255, is `argPos keys i`. -/
theorem start14 (keys : IVec S256 32) (i : Fin 256) :
    min (val_main_v14 (F := F) keys (six i)).toInt.toNat 255 = (argPos keys i).val := by
  rw [val_main_v14_apply, val_main_v13_apply, val_main_v10_apply, val_main_v12_apply, val_main_v9_apply, val_main_v11_apply,
    val_main_c_apply, val_main_c_0_apply, v0_apply]
  exact wrap_clamp_ofNat (argPos keys i)

theorem start21 (keys : IVec S256 32) (i : Fin 256) :
    min (val_main_v21 (F := F) keys (six i)).toInt.toNat 255 = (argPos keys i).val := by
  rw [val_main_v21_apply, val_main_v20_apply, val_main_v17_apply, val_main_v19_apply, val_main_v16_apply, val_main_v18_apply,
    val_main_c_1_apply, val_main_c_2_apply, v0_apply]
  exact wrap_clamp_ofNat (argPos keys i)

/-! ## The gather along the leading axis -/

/-- `px[idx]` at slot (i, ch, r, c): the operand at (the clamped start index of slot i, ch, r, c) — axis 0 is collapsed
    and takes the start, axes 1 … 3 are offset axes and take the result's own coordinates. -/
theorem gather2_apply {α : Type} (x : S256x2x256x256.Idx → α) (idx : IVec S256x1 32) (i : Fin 256) (ch : Fin 2) (r c : Fin 256) :
    Host.gather gather_S256x2x256x256_S256x1_S256x2x256x256_123_0_n_n_0_1_12256256 x idx (slot i ch r c)
      = x (slot ⟨min (idx (six i)).toInt.toNat 255, Nat.lt_succ_of_le (Nat.min_le_right _ _)⟩ ch r c) := by
  unfold Host.gather
  congr 1
  funext a
  apply Fin.ext
  fin_cases a <;>
    simp [GatherDims.operandIdx, GatherDims.start, GatherDims.offCoord, GatherDims.batchCoord,
      gather_S256x2x256x256_S256x1_S256x2x256x256_123_0_n_n_0_1_12256256, GatherDims.sKept, Shape.kept, slot, six]
  · refine congrArg (fun q => min (idx q).toInt.toNat 255) ?_
    funext b
    fin_cases b <;> rfl
  all_goals rfl

/-- The same for the one-plane operand. -/
theorem gather1_apply {α : Type} (x : S256x1x256x256.Idx → α) (idx : IVec S256x1 32) (i : Fin 256) (ch : Fin 1) (r c : Fin 256) :
    Host.gather gather_S256x1x256x256_S256x1_S256x1x256x256_123_0_n_n_0_1_11256256 x idx (slot i ch r c)
      = x (slot ⟨min (idx (six i)).toInt.toNat 255, Nat.lt_succ_of_le (Nat.min_le_right _ _)⟩ ch r c) := by
  unfold Host.gather
  congr 1
  funext a
  apply Fin.ext
  fin_cases a <;>
    simp [GatherDims.operandIdx, GatherDims.start, GatherDims.offCoord, GatherDims.batchCoord,
      gather_S256x1x256x256_S256x1_S256x1x256x256_123_0_n_n_0_1_11256256, GatherDims.sKept, Shape.kept, slot, six]
  · refine congrArg (fun q => min (idx q).toInt.toNat 255) ?_
    funext b
    fin_cases b <;> rfl
  all_goals rfl

/-! ## `_to_patches`: element (q, ch, r, c) is patch q's element (ch, r, c)

Each of the four layout steps moves an index by row-major arithmetic on literal extents; they are read one at a time.
Row-major position ((q · C + ch) · 256 + r) · 256 + c of the [256, C, 256, 256] result is index
(q / 16, q % 16, ch, r, c) of the transposed array, (ch, q / 16, r, q % 16, c) before the transpose,
(ch, (q / 16) · 256 + r, (q % 16) · 256 + c) of the [C, 4096, 4096] array and the same behind a leading 0 in the planes. -/

section TwoPlanes

theorem unmerge2 (q : Fin 256) (ch : Fin 2) (r c : Fin 256) :
    idx_main_v4 (slot q ch r c) = ix5 (⟨q.val / 16, by omega⟩ : Fin 16) (⟨q.val % 16, by omega⟩ : Fin 16) ch r c := by
  have hq := q.isLt; have hch := ch.isLt; have hr := r.isLt; have hc := c.isLt
  funext a
  apply Fin.ext
  match a with
  | ⟨0, _⟩ => show (((q.val * 2 + ch.val) * 256 + r.val) * 256 + c.val) / 2097152 = q.val / 16; omega
  | ⟨1, _⟩ => show (((q.val * 2 + ch.val) * 256 + r.val) * 256 + c.val) / 131072 % 16 = q.val % 16; omega
  | ⟨2, _⟩ => show (((q.val * 2 + ch.val) * 256 + r.val) * 256 + c.val) / 65536 % 2 = ch.val; omega
  | ⟨3, _⟩ => show (((q.val * 2 + ch.val) * 256 + r.val) * 256 + c.val) / 256 % 256 = r.val; omega
  | ⟨4, _⟩ => show (((q.val * 2 + ch.val) * 256 + r.val) * 256 + c.val) % 256 = c.val; omega

theorem untranspose2 (a b : Fin 16) (ch : Fin 2) (r c : Fin 256) :
    idx_main_v3 (ix5 a b ch r c) = ix5 ch a r b c := by
  funext k
  match k with
  | ⟨0, _⟩ => rfl
  | ⟨1, _⟩ => rfl
  | ⟨2, _⟩ => rfl
  | ⟨3, _⟩ => rfl
  | ⟨4, _⟩ => rfl

theorem unsplit2 (ch : Fin 2) (a : Fin 16) (r : Fin 256) (b : Fin 16) (c : Fin 256) :
    idx_main_v2 (ix5 ch a r b c) = ix3 ch (⟨a.val * 256 + r.val, by omega⟩ : Fin 4096) (⟨b.val * 256 + c.val, by omega⟩ : Fin 4096) := by
  have hch := ch.isLt; have ha := a.isLt; have hr := r.isLt; have hb := b.isLt; have hc := c.isLt
  funext k
  apply Fin.ext
  match k with
  | ⟨0, _⟩ => show ((((ch.val * 16 + a.val) * 256 + r.val) * 16 + b.val) * 256 + c.val) / 16777216 = ch.val; omega
  | ⟨1, _⟩ => show ((((ch.val * 16 + a.val) * 256 + r.val) * 16 + b.val) * 256 + c.val) / 4096 % 4096 = a.val * 256 + r.val; omega
  | ⟨2, _⟩ => show ((((ch.val * 16 + a.val) * 256 + r.val) * 16 + b.val) * 256 + c.val) % 4096 = b.val * 256 + c.val; omega

theorem unsqueeze2 (ch : Fin 2) (R K : Fin 4096) :
    idx_main_v1 (ix3 ch R K) = ix4 (⟨0, Nat.one_pos⟩ : Fin 1) ch R K := by
  have hch := ch.isLt; have hR := R.isLt; have hK := K.isLt
  funext k
  apply Fin.ext
  match k with
  | ⟨0, _⟩ => rfl
  | ⟨1, _⟩ => show ((ch.val * 4096 + R.val) * 4096 + K.val) / 16777216 % 2 = ch.val; omega
  | ⟨2, _⟩ => show ((ch.val * 4096 + R.val) * 4096 + K.val) / 4096 % 4096 = R.val; omega
  | ⟨3, _⟩ => show ((ch.val * 4096 + R.val) * 4096 + K.val) % 4096 = K.val; omega

theorem patches2_slot (x0 : (⟨S1x2x4096x4096, .f32⟩ : BufTy).Contents (Elt F)) (q : Fin 256) (ch : Fin 2) (r c : Fin 256) :
    val_main_v4 (F := F) x0 (slot q ch r c) = x0 (src q ch r c) := by
  rw [val_main_v4_apply, val_main_v3_apply, val_main_v2_apply, val_main_v1_apply, unmerge2, untranspose2, unsplit2, unsqueeze2]
  refine congrArg x0 (funext fun k => ?_)
  match k with
  | ⟨0, _⟩ => rfl
  | ⟨1, _⟩ => rfl
  | ⟨2, _⟩ => rfl
  | ⟨3, _⟩ => rfl

end TwoPlanes

section OnePlane

theorem unmerge1 (q : Fin 256) (ch : Fin 1) (r c : Fin 256) :
    idx_main_v8 (slot q ch r c) = ix5 (⟨q.val / 16, by omega⟩ : Fin 16) (⟨q.val % 16, by omega⟩ : Fin 16) (⟨0, Nat.one_pos⟩ : Fin 1) r c := by
  have hq := q.isLt; have hch := ch.isLt; have hr := r.isLt; have hc := c.isLt
  funext a
  apply Fin.ext
  match a with
  | ⟨0, _⟩ => show (((q.val * 1 + ch.val) * 256 + r.val) * 256 + c.val) / 1048576 = q.val / 16; omega
  | ⟨1, _⟩ => show (((q.val * 1 + ch.val) * 256 + r.val) * 256 + c.val) / 65536 % 16 = q.val % 16; omega
  | ⟨2, _⟩ => rfl
  | ⟨3, _⟩ => show (((q.val * 1 + ch.val) * 256 + r.val) * 256 + c.val) / 256 % 256 = r.val; omega
  | ⟨4, _⟩ => show (((q.val * 1 + ch.val) * 256 + r.val) * 256 + c.val) % 256 = c.val; omega

theorem untranspose1 (a b : Fin 16) (z : Fin 1) (r c : Fin 256) :
    idx_main_v7 (ix5 a b z r c) = ix5 z a r b c := by
  funext k
  match k with
  | ⟨0, _⟩ => rfl
  | ⟨1, _⟩ => rfl
  | ⟨2, _⟩ => rfl
  | ⟨3, _⟩ => rfl
  | ⟨4, _⟩ => rfl

theorem unsplit1 (z : Fin 1) (a : Fin 16) (r : Fin 256) (b : Fin 16) (c : Fin 256) :
    idx_main_v6 (ix5 z a r b c) = ix3 (⟨0, Nat.one_pos⟩ : Fin 1) (⟨a.val * 256 + r.val, by omega⟩ : Fin 4096) (⟨b.val * 256 + c.val, by omega⟩ : Fin 4096) := by
  have hz := z.isLt; have ha := a.isLt; have hr := r.isLt; have hb := b.isLt; have hc := c.isLt
  funext k
  apply Fin.ext
  match k with
  | ⟨0, _⟩ => rfl
  | ⟨1, _⟩ => show ((((z.val * 16 + a.val) * 256 + r.val) * 16 + b.val) * 256 + c.val) / 4096 % 4096 = a.val * 256 + r.val; omega
  | ⟨2, _⟩ => show ((((z.val * 16 + a.val) * 256 + r.val) * 16 + b.val) * 256 + c.val) % 4096 = b.val * 256 + c.val; omega

theorem unsqueeze1 (z : Fin 1) (R K : Fin 4096) :
    idx_main_v5 (ix3 z R K) = ix4 (⟨0, Nat.one_pos⟩ : Fin 1) (⟨0, Nat.one_pos⟩ : Fin 1) R K := by
  have hz := z.isLt; have hR := R.isLt; have hK := K.isLt
  funext k
  apply Fin.ext
  match k with
  | ⟨0, _⟩ => rfl
  | ⟨1, _⟩ => rfl
  | ⟨2, _⟩ => show ((z.val * 4096 + R.val) * 4096 + K.val) / 4096 % 4096 = R.val; omega
  | ⟨3, _⟩ => show ((z.val * 4096 + R.val) * 4096 + K.val) % 4096 = K.val; omega

theorem patches1_slot (x1 : (⟨S1x1x4096x4096, .f32⟩ : BufTy).Contents (Elt F)) (q : Fin 256) (ch : Fin 1) (r c : Fin 256) :
    val_main_v8 (F := F) x1 (slot q ch r c) = x1 (src q ch r c) := by
  rw [val_main_v8_apply, val_main_v7_apply, val_main_v6_apply, val_main_v5_apply, unmerge1, untranspose1, unsplit1, unsqueeze1]
  refine congrArg x1 (funext fun k => ?_)
  have hch := ch.isLt
  match k with
  | ⟨0, _⟩ => rfl
  | ⟨1, _⟩ => exact Fin.ext (show (0 : ℕ) = ch.val by omega)
  | ⟨2, _⟩ => rfl
  | ⟨3, _⟩ => rfl

end OnePlane

/-! ## The reference's two results are the specification's -/

theorem v15_eq (x0 : (⟨S1x2x4096x4096, .f32⟩ : BufTy).Contents (Elt F)) (keys : IVec S256 32) :
    val_main_v15 (F := F) x0 keys = gathered (C := 2) x0 (argPos keys) := by
  funext j
  obtain ⟨i, ch, r, c, rfl⟩ : ∃ (i : Fin 256) (ch : Fin 2) (r c : Fin 256), j = slot i ch r c := ⟨_, _, _, _, eq_slot j⟩
  rw [gathered_slot]
  unfold val_main_v15
  rw [gather2_apply, patches2_slot]
  exact congrArg (fun q => x0 (src q ch r c)) (Fin.ext (start14 keys i))

theorem v22_eq (x1 : (⟨S1x1x4096x4096, .f32⟩ : BufTy).Contents (Elt F)) (keys : IVec S256 32) :
    val_main_v22 (F := F) x1 keys = gathered (C := 1) x1 (argPos keys) := by
  funext j
  obtain ⟨i, ch, r, c, rfl⟩ : ∃ (i : Fin 256) (ch : Fin 1) (r c : Fin 256), j = slot i ch r c := ⟨_, _, _, _, eq_slot j⟩
  rw [gathered_slot]
  unfold val_main_v22
  rw [gather1_apply, patches1_slot]
  exact congrArg (fun q => x1 (src q ch r c)) (Fin.ext (start21 keys i))

end Cert.ReferenceIdeal.RefValue

end
-- ==== Proof.lean ====
/-
  A permutation gather of 256 × 256 patches, proved equal to its jnp reference over the extended reals.

  Both programs first compute `inv = argsort(perm)`.  The kernel hands ph = inv // 16 and pw = inv % 16 to a
  pallas_call as scalar-prefetch tables; at grid point i its index maps fetch the (1, C, 256, 256) block at block
  index (0, 0, ph[i], pw[i]) of each operand, the body copies it, and the block is written back at block index
  (i, 0, 0, 0).  The reference cuts the planes into patches by reshape / transpose / reshape and gathers patch inv[i]
  into slot i.  Whatever `perm` holds, inv[i] is the word of a position p i < 256 (a sort permutes 0 … 255), so
    * ph[i], pw[i] < 16: every fetched block lies inside its array, which is what the kernel's frames need, and
    * both programs leave out[i, ch, r, c] = x[0, ch, (p i / 16) · 256 + r, (p i % 16) · 256 + c]
  (PatchSpec's `gathered`).  No float is computed on: the result is a rearrangement of the inputs, equal on the
  extended reals entry by entry, and the finiteness of the inputs is never used.

  Modules: ArgsortWords (an argsort entry is a position's word; floor_divide and remainder by 16 on such a word),
  PatchSpec (the specification), Tables / IndexMaps / Ok (the tables' contents, the index maps in closed form, the
  pipeline's side condition; once per kernel program), Blocks and KernelValue (where each block sits; the kernel's
  two result arrays), RefValue (the reference read at an index).
-/
import proofs.«422418_j29910152249781_1_alg».proof.Defs
import proofs.«422418_j29910152249781_1_alg».proof.Proof.Gen.Kernel
import proofs.«422418_j29910152249781_1_alg».proof.Proof.Gen.Kernel.Skeleton
import proofs.«422418_j29910152249781_1_alg».proof.Proof.Gen.Kernel.Launch
import proofs.«422418_j29910152249781_1_alg».proof.Proof.Gen.Kernel.Points
import proofs.«422418_j29910152249781_1_alg».proof.Proof.Gen.Kernel.Frame
import proofs.«422418_j29910152249781_1_alg».proof.Proof.Gen.KernelIdeal
import proofs.«422418_j29910152249781_1_alg».proof.Proof.Gen.KernelIdeal.Skeleton
import proofs.«422418_j29910152249781_1_alg».proof.Proof.Gen.KernelIdeal.Launch
import proofs.«422418_j29910152249781_1_alg».proof.Proof.Gen.KernelIdeal.Points
import proofs.«422418_j29910152249781_1_alg».proof.Proof.Gen.KernelIdeal.Frame
import proofs.«422418_j29910152249781_1_alg».proof.Proof.Gen.ReferenceIdeal
import proofs.«422418_j29910152249781_1_alg».proof.Proof.Gen.ReferenceIdeal.Run
import proofs.«422418_j29910152249781_1_alg».proof.Proof.Gen.ReferenceIdeal.Read
import proofs.«422418_j29910152249781_1_alg».proof.Proof.Gen.Pre_finite_inputs
import proofs.«422418_j29910152249781_1_alg».proof.Proof.OkBits
import proofs.«422418_j29910152249781_1_alg».proof.Proof.OkIdeal
import proofs.«422418_j29910152249781_1_alg».proof.Proof.KernelValue
import proofs.«422418_j29910152249781_1_alg».proof.Proof.RefValue
import Idealize.ShloMosaic.Adequacy
import Idealize.ShloMosaic.Init

noncomputable section

namespace Cert.Proof

open Idealize.ShloMosaic Idealize.ShloMosaic.TcCoe Idealize.SL.Sem Cert.Proof.PatchSpec Cert.Proof.ArgsortWords

/-- The word-level kernel runs and keeps its arguments: its frame holds under the tables' side condition, which
    holds at every launch memory. -/
theorem frame_kernel : Cert.frame_Kernel := fun m ρ _ => Cert.Kernel.Gen.frame m ρ (Cert.Kernel.Tables.ok m)

/-- The idealized kernel likewise. -/
theorem frame_kernelIdeal : Cert.frame_KernelIdeal := fun m ρ _ => Cert.KernelIdeal.Gen.frame m ρ (Cert.KernelIdeal.Tables.ok m)

/-- The reference is host operations only: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with `gathered planes p` for the argsort's positions `p` of the shared `perm`. -/
theorem algebraic : Cert.algebraic_KernelIdeal_ReferenceIdeal := by
  intro m ρ m' ρ' _ hagree
  refine ⟨fun c => gathered (C := 2) (m ((c.tc : Thread Cert.KernelIdeal.nD Cert.KernelIdeal.τ).loc Cert.KernelIdeal.main_arg0)) (Cert.KernelIdeal.Tables.pos m),
    fun c => gathered (C := 1) (m ((c.tc : Thread Cert.KernelIdeal.nD Cert.KernelIdeal.τ).loc Cert.KernelIdeal.main_arg1)) (Cert.KernelIdeal.Tables.pos m),
    Cert.KernelIdeal.KValue.run m ρ (Cert.KernelIdeal.Tables.ok m) (Cert.KernelIdeal.Tables.pos m)
      (Cert.KernelIdeal.Tables.tbl0_toNat m) (Cert.KernelIdeal.Tables.tbl1_toNat m), ?_⟩
  refine (θ_run Cert.ReferenceIdeal.defs _ _).mono (fun _ h c => ⟨?_, ?_, (h c).2.2⟩) (Cert.ReferenceIdeal.Value.run (F := Ideal) m' ρ')
  · refine (h c).1.trans ((Cert.ReferenceIdeal.Read.val_main_v15_eq _ _).trans ((Cert.ReferenceIdeal.RefValue.v15_eq _ _).trans ?_))
    rw [(hagree c).1, (hagree c).2.2]
    obtain rfl : c = 0 := Subsingleton.elim _ _
    rfl
  · refine (h c).2.1.trans ((Cert.ReferenceIdeal.Read.val_main_v22_eq _ _).trans ((Cert.ReferenceIdeal.RefValue.v22_eq _ _).trans ?_))
    rw [(hagree c).2.1, (hagree c).2.2]
    obtain rfl : c = 0 := Subsingleton.elim _ _
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
